-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S256x1 .f32) (main_arg6 : FVec F S1 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2x512x512 .f32) (main_arg1 : FVec F S1024x512 .f32) (main_arg2 : FVec F S512 .f32) (main_arg3 : FVec F S512x256 .f32) (main_arg4 : FVec F S256 .f32) (main_arg5 : FVec F S256x1 .f32) (main_arg6 : FVec F S1 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S2x512x512 : Shape := ⟨3, ![2, 512, 512]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x512 : Shape := ⟨2, ![512, 512]⟩
abbrev S1x512x512 : Shape := ⟨3, ![1, 512, 512]⟩
abbrev S1x32x512 : Shape := ⟨3, ![1, 32, 512]⟩
abbrev S1x128x512 : Shape := ⟨3, ![1, 128, 512]⟩
abbrev S1x32x128 : Shape := ⟨3, ![1, 32, 128]⟩
abbrev S32x512 : Shape := ⟨2, ![32, 512]⟩
abbrev S128x512 : Shape := ⟨2, ![128, 512]⟩
abbrev S32x1x512 : Shape := ⟨3, ![32, 1, 512]⟩
abbrev S32x128x512 : Shape := ⟨3, ![32, 128, 512]⟩
abbrev S1x1x512 : Shape := ⟨3, ![1, 1, 512]⟩
abbrev S4096x512 : Shape := ⟨2, ![4096, 512]⟩
abbrev S4096x256 : Shape := ⟨2, ![4096, 256]⟩
abbrev S1x256 : Shape := ⟨2, ![1, 256]⟩
abbrev S32x128x256 : Shape := ⟨3, ![32, 128, 256]⟩
abbrev S1x1x256 : Shape := ⟨3, ![1, 1, 256]⟩
abbrev S32x128 : Shape := ⟨2, ![32, 128]⟩
abbrev S32x128x1 : Shape := ⟨3, ![32, 128, 1]⟩
abbrev S1x1x1 : Shape := ⟨3, ![1, 1, 1]⟩

abbrev nBuf : Space → Nat
  | .hbm => 13
  | .vmem => 19
  | .smem => 0
  | _ => 0

abbrev bufTy : (tb : Table) → Fin (tcTables nBuf tb) → BufTy
  | .hbm, ⟨0, _⟩ => ⟨S2x512x512, .f32⟩
  | .hbm, ⟨1, _⟩ => ⟨S1024x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S512x512, .f32⟩
  | .hbm, ⟨8, _⟩ => ⟨S512x512, .f32⟩
  | .hbm, ⟨9, _⟩ => ⟨S256, .f32⟩
  | .hbm, ⟨10, _⟩ => ⟨S2x512x512, .f32⟩
  | .hbm, ⟨11, _⟩ => ⟨S2x512x512, .f32⟩
  | .hbm, ⟨12, _⟩ => ⟨S2x512x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .f32⟩
  | .local _ .vmem, ⟨3, _⟩ => ⟨S512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x32x512, .f32⟩
  | .local _ .vmem, ⟨9, _⟩ => ⟨S1x32x512, .f32⟩
  | .local _ .vmem, ⟨10, _⟩ => ⟨S1x128x512, .f32⟩
  | .local _ .vmem, ⟨11, _⟩ => ⟨S1x128x512, .f32⟩
  | .local _ .vmem, ⟨12, _⟩ => ⟨S512, .f32⟩
  | .local _ .vmem, ⟨13, _⟩ => ⟨S512x256, .f32⟩
  | .local _ .vmem, ⟨14, _⟩ => ⟨S256, .f32⟩
  | .local _ .vmem, ⟨15, _⟩ => ⟨S256, .f32⟩
  | .local _ .vmem, ⟨16, _⟩ => ⟨S1, .f32⟩
  | .local _ .vmem, ⟨17, _⟩ => ⟨S1x32x128, .f32⟩
  | .local _ .vmem, ⟨18, _⟩ => ⟨S1x32x128, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![2, 16, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1x32x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

class Facts₀ : Prop where
  slices_S1024x512_S512x512_0_0 : S1024x512.Slices ![0, 0] S512x512
  slices_S1024x512_S512x512_512_0 : S1024x512.Slices ![512, 0] S512x512
  shapeCasts_S256x1_S256 : S256x1.ShapeCasts S256
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S1x512x512 : S512x512.ShapeCasts S1x512x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512_S512_0 : ∀ a, (![0] : Fin 1 → Nat) a + S512.size a ≤ S512.size a
  h_S512 : 0 < S512.numel
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  shapeCasts_S512_S1x1x512 : S512.ShapeCasts S1x1x512
  broadcasts_S1x1x512_S32x128x512 : S1x1x512.Broadcasts S32x128x512
  shapeCasts_S32x128x512_S4096x512 : S32x128x512.ShapeCasts S4096x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  shapeCasts_S4096x256_S32x128x256 : S4096x256.ShapeCasts S32x128x256
  shapeCasts_S256_S256 : S256.ShapeCasts S256
  inb_S1_S1_0 : ∀ a, (![0] : Fin 1 → Nat) a + S1.size a ≤ S1.size a
  h_S1 : 0 < S1.numel
  shapeCasts_S256_S1x1x256 : S256.ShapeCasts S1x1x256
  broadcasts_S1x1x256_S32x128x256 : S1x1x256.Broadcasts S32x128x256
  reduces_S32x128x256_S32x128 : S32x128x256.Reduces [2] S32x128
  shapeCasts_S32x128_S32x128x1 : S32x128.ShapeCasts S32x128x1
  shapeCasts_S1_S1x1x1 : S1.ShapeCasts S1x1x1
  broadcasts_S1x1x1_S32x128x1 : S1x1x1.Broadcasts S32x128x1
  shapeCasts_S32x128x1_S32x128 : S32x128x1.ShapeCasts S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  dot_S512x512_S512x512_S512x512_1_0_0_1_n_n_wf : DotDims.WF S512x512 S512x512 S512x512 [1] [0] [0] [1] [] []
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S2x512x512.size a
  hwx0_0 : ∀ i : grid0.Coords, EltTy.bits .f32 = 32 ∨ (Rect.block (s := S2x512x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S2x512x512.size a
  hwx0_3 : ∀ i : grid0.Coords, EltTy.bits .f32 = 32 ∨ (Rect.block (s := S2x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S2x512x512.size a
  hwx0_4 : ∀ i : grid0.Coords, EltTy.bits .f32 = 32 ∨ (Rect.block (s := S2x512x512) S1x512x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x512.size a ≤ S2x512x512.size a
  hwx1_0 : ∀ i : grid1.Coords, EltTy.bits .f32 = 32 ∨ (Rect.block (s := S2x512x512) S1x32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x512.size a ≤ S2x512x512.size a
  hwx1_1 : ∀ i : grid1.Coords, EltTy.bits .f32 = 32 ∨ (Rect.block (s := S2x512x512) S1x128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x32x128.size a ≤ S2x512x512.size a
  hwx1_7 : ∀ i : grid1.Coords, EltTy.bits .f32 = 32 ∨ (Rect.block (s := S2x512x512) S1x32x128.size (cc1_transform_7 i) (hinb1_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3_0) S1x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S1x32x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2x512x512 : Shape := ⟨3, ![2, 512, 512]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x512 : Shape := ⟨2, ![512, 512]⟩
abbrev S2x512x1x512 : Shape := ⟨4, ![2, 512, 1, 512]⟩
abbrev S2x1x512x512 : Shape := ⟨4, ![2, 1, 512, 512]⟩
abbrev S2x512x512x512 : Shape := ⟨4, ![2, 512, 512, 512]⟩
abbrev S1x1x1x512 : Shape := ⟨4, ![1, 1, 1, 512]⟩
abbrev S_ : Shape := ⟨0, ![]⟩
abbrev S2x512x512x256 : Shape := ⟨4, ![2, 512, 512, 256]⟩
abbrev S1x1x1x256 : Shape := ⟨4, ![1, 1, 1, 256]⟩
abbrev S2x512x512x1 : Shape := ⟨4, ![2, 512, 512, 1]⟩
abbrev S1x1x1x1 : Shape := ⟨4, ![1, 1, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S1024x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S512x512, .f32⟩
  | .hbm, ⟨8, _⟩ => ⟨S2x512x512, .f32⟩
  | .hbm, ⟨9, _⟩ => ⟨S512x512, .f32⟩
  | .hbm, ⟨10, _⟩ => ⟨S2x512x512, .f32⟩
  | .hbm, ⟨11, _⟩ => ⟨S2x512x1x512, .f32⟩
  | .hbm, ⟨12, _⟩ => ⟨S2x1x512x512, .f32⟩
  | .hbm, ⟨13, _⟩ => ⟨S2x512x512x512, .f32⟩
  | .hbm, ⟨14, _⟩ => ⟨S2x512x512x512, .f32⟩
  | .hbm, ⟨15, _⟩ => ⟨S2x512x512x512, .f32⟩
  | .hbm, ⟨16, _⟩ => ⟨S1x1x1x512, .f32⟩
  | .hbm, ⟨17, _⟩ => ⟨S2x512x512x512, .f32⟩
  | .hbm, ⟨18, _⟩ => ⟨S2x512x512x512, .f32⟩
  | .hbm, ⟨19, _⟩ => ⟨S_, .f32⟩
  | .hbm, ⟨20, _⟩ => ⟨S2x512x512x512, .f32⟩
  | .hbm, ⟨21, _⟩ => ⟨S2x512x512x512, .f32⟩
  | .hbm, ⟨22, _⟩ => ⟨S2x512x512x256, .f32⟩
  | .hbm, ⟨23, _⟩ => ⟨S1x1x1x256, .f32⟩
  | .hbm, ⟨24, _⟩ => ⟨S2x512x512x256, .f32⟩
  | .hbm, ⟨25, _⟩ => ⟨S2x512x512x256, .f32⟩
  | .hbm, ⟨26, _⟩ => ⟨S_, .f32⟩
  | .hbm, ⟨27, _⟩ => ⟨S2x512x512x256, .f32⟩
  | .hbm, ⟨28, _⟩ => ⟨S2x512x512x256, .f32⟩
  | .hbm, ⟨29, _⟩ => ⟨S2x512x512x1, .f32⟩
  | .hbm, ⟨30, _⟩ => ⟨S1x1x1x1, .f32⟩
  | .hbm, ⟨31, _⟩ => ⟨S2x512x512x1, .f32⟩
  | .hbm, ⟨32, _⟩ => ⟨S2x512x512x1, .f32⟩
  | .hbm, ⟨33, _⟩ => ⟨S2x512x512, .f32⟩
  | .hbm, ⟨34, _⟩ => ⟨S2x512x512, .f32⟩
  | .hbm, ⟨35, _⟩ => ⟨S2x512x512, .f32⟩
  | .hbm, ⟨36, _⟩ => ⟨S_, .f32⟩
  | .hbm, ⟨37, _⟩ => ⟨S2x512x512, .f32⟩
  | .hbm, ⟨38, _⟩ => ⟨S2x512x512, .f32⟩
  | .hbm, ⟨39, _⟩ => ⟨S_, .f32⟩
  | .hbm, ⟨40, _⟩ => ⟨S2x512x512, .f32⟩
  | .hbm, ⟨41, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_cst : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S1024x512_S512x512_0_0 : S1024x512.Slices ![0, 0] S512x512
  slices_S1024x512_S512x512_512_0 : S1024x512.Slices ![512, 0] S512x512
  bcast_S2x512x512_S2x512x1x512_0_1_3 : S2x512x512.BroadcastsInDim S2x512x1x512 (![0, 1, 3] : Fin 3 → Fin S2x512x1x512.rank)
  bcast_S2x512x512_S2x1x512x512_0_2_3 : S2x512x512.BroadcastsInDim S2x1x512x512 (![0, 2, 3] : Fin 3 → Fin S2x1x512x512.rank)
  bcast_S2x512x1x512_S2x512x512x512_0_1_2_3 : S2x512x1x512.BroadcastsInDim S2x512x512x512 (![0, 1, 2, 3] : Fin 4 → Fin S2x512x512x512.rank)
  bcast_S2x1x512x512_S2x512x512x512_0_1_2_3 : S2x1x512x512.BroadcastsInDim S2x512x512x512 (![0, 1, 2, 3] : Fin 4 → Fin S2x512x512x512.rank)
  bcast_S512_S1x1x1x512_3 : S512.BroadcastsInDim S1x1x1x512 (![3] : Fin 1 → Fin S1x1x1x512.rank)
  bcast_S1x1x1x512_S2x512x512x512_0_1_2_3 : S1x1x1x512.BroadcastsInDim S2x512x512x512 (![0, 1, 2, 3] : Fin 4 → Fin S2x512x512x512.rank)
  bcast_S_S2x512x512x512 : S_.BroadcastsInDim S2x512x512x512 (![] : Fin 0 → Fin S2x512x512x512.rank)
  bcast_S256_S1x1x1x256_3 : S256.BroadcastsInDim S1x1x1x256 (![3] : Fin 1 → Fin S1x1x1x256.rank)
  bcast_S1x1x1x256_S2x512x512x256_0_1_2_3 : S1x1x1x256.BroadcastsInDim S2x512x512x256 (![0, 1, 2, 3] : Fin 4 → Fin S2x512x512x256.rank)
  bcast_S_S2x512x512x256 : S_.BroadcastsInDim S2x512x512x256 (![] : Fin 0 → Fin S2x512x512x256.rank)
  bcast_S1_S1x1x1x1_3 : S1.BroadcastsInDim S1x1x1x1 (![3] : Fin 1 → Fin S1x1x1x1.rank)
  bcast_S1x1x1x1_S2x512x512x1_0_1_2_3 : S1x1x1x1.BroadcastsInDim S2x512x512x1 (![0, 1, 2, 3] : Fin 4 → Fin S2x512x512x1.rank)
  shapeCasts_S2x512x512x1_S2x512x512 : S2x512x512x1.ShapeCasts S2x512x512
  bcast_S_S2x512x512 : S_.BroadcastsInDim S2x512x512 (![] : Fin 0 → Fin S2x512x512.rank)
  dot_S2x512x512_S512x512_S2x512x512_2_0_01_1_n_n_wf : DotDims.WF S2x512x512 S512x512 S2x512x512 [2] [0] [0, 1] [1] [] []
  dot_S2x512x512x512_S512x256_S2x512x512x256_3_0_012_1_n_n_wf : DotDims.WF S2x512x512x512 S512x256 S2x512x512x256 [3] [0] [0, 1, 2] [1] [] []
  dot_S2x512x512x256_S256x1_S2x512x512x1_3_0_012_1_n_n_wf : DotDims.WF S2x512x512x256 S256x1 S2x512x512x1 [3] [0] [0, 1, 2] [1] [] []

variable [Facts₀]

def dot_S2x512x512_S512x512_S2x512x512_2_0_01_1_n_n : DotDims S2x512x512 S512x512 S2x512x512 where
  lhsContracting := [2]
  rhsContracting := [0]
  lhsNonContracting := [0, 1]
  rhsNonContracting := [1]
  lhsBatch := []
  rhsBatch := []
  wf := dot_S2x512x512_S512x512_S2x512x512_2_0_01_1_n_n_wf
def dot_S2x512x512x512_S512x256_S2x512x512x256_3_0_012_1_n_n : DotDims S2x512x512x512 S512x256 S2x512x512x256 where
  lhsContracting := [3]
  rhsContracting := [0]
  lhsNonContracting := [0, 1, 2]
  rhsNonContracting := [1]
  lhsBatch := []
  rhsBatch := []
  wf := dot_S2x512x512x512_S512x256_S2x512x512x256_3_0_012_1_n_n_wf
def dot_S2x512x512x256_S256x1_S2x512x512x1_3_0_012_1_n_n : DotDims S2x512x512x256 S256x1 S2x512x512x1 where
  lhsContracting := [3]
  rhsContracting := [0]
  lhsNonContracting := [0, 1, 2]
  rhsNonContracting := [1]
  lhsBatch := []
  rhsBatch := []
  wf := dot_S2x512x512x256_S256x1_S2x512x512x1_3_0_012_1_n_n_wf

class Facts : Prop extends Facts₀ where

variable [Facts]
-- ==== Proof.Spec.lean ====
/-
  The pairwise scorer as one function of its seven argument arrays, over the extended reals.

  For a batch entry `b` and residues `i`, `j`: the features of `i` go through the top half of the first
  layer's matrix, those of `j` through the bottom half (the concatenation `[f_i, f_j]` times the whole matrix,
  split by rows); their sum plus the bias is clamped at zero; the second layer is a product with its matrix, a
  bias and the same clamp; the third is a dot product with one column, a bias, and the logistic function.
  Every sum is over one axis of a fixed length, written with explicit coordinates.
-/
import Idealize.ShloMosaic.Lib.ValueIdx
import Idealize.ShloMosaic.PureOps.Ideal

noncomputable section

namespace Cert.Spec

open Idealize.ShloMosaic Idealize.ShloMosaic.ValueIdx

/-- The zero the two clamps compare with: the float word of `0.0`, never evaluated. -/
abbrev zero : EReal := Ideal.ofBits .f32 0x00000000#32

/-- Rows `0 … 511` of a 1024-row matrix. -/
def topHalf (w1 : (⟨2, ![1024, 512]⟩ : Shape).Idx → EReal) (h k : Fin 512) : EReal :=
  w1 (ix2 (⟨h.val, by omega⟩ : Fin 1024) k)

/-- Rows `512 … 1023` of a 1024-row matrix. -/
def botHalf (w1 : (⟨2, ![1024, 512]⟩ : Shape).Idx → EReal) (h k : Fin 512) : EReal :=
  w1 (ix2 (⟨512 + h.val, by omega⟩ : Fin 1024) k)

/-- One residue's features through a 512 × 512 matrix: entry `k` of row `s` of batch `b`. -/
def proj (f : (⟨3, ![2, 512, 512]⟩ : Shape).Idx → EReal) (w : Fin 512 → Fin 512 → EReal)
    (b : Fin 2) (s k : Fin 512) : EReal :=
  ∑ h : Fin 512, f (ix3 b s h) * w h k

/-- The first hidden layer at the pair `(i, j)`: the two projections and the bias, clamped at zero. -/
def hidden1 (a c : Fin 2 → Fin 512 → Fin 512 → EReal) (b1 : (⟨1, ![512]⟩ : Shape).Idx → EReal)
    (b : Fin 2) (i j h : Fin 512) : EReal :=
  max (a b i h + c b j h + b1 (ix1 h)) zero

/-- The second hidden layer at the pair `(i, j)`: a product with the 512 × 256 matrix, the bias, the clamp. -/
def hidden2 (a c : Fin 2 → Fin 512 → Fin 512 → EReal) (b1 : (⟨1, ![512]⟩ : Shape).Idx → EReal)
    (w2 : (⟨2, ![512, 256]⟩ : Shape).Idx → EReal) (b2 : (⟨1, ![256]⟩ : Shape).Idx → EReal)
    (b : Fin 2) (i j : Fin 512) (k : Fin 256) : EReal :=
  max (∑ h : Fin 512, hidden1 a c b1 b i j h * w2 (ix2 h k) + b2 (ix1 k)) zero

/-- The pair's logit: the second layer against one column of 256 weights, plus the last bias. -/
def logit (a c : Fin 2 → Fin 512 → Fin 512 → EReal) (b1 : (⟨1, ![512]⟩ : Shape).Idx → EReal)
    (w2 : (⟨2, ![512, 256]⟩ : Shape).Idx → EReal) (b2 : (⟨1, ![256]⟩ : Shape).Idx → EReal)
    (w3 : Fin 256 → EReal) (b3 : (⟨1, ![1]⟩ : Shape).Idx → EReal) (b : Fin 2) (i j : Fin 512) : EReal :=
  ∑ k : Fin 256, hidden2 a c b1 w2 b2 b i j k * w3 k + b3 (ix1 0)

/-- The pair's score from the two projections: the logistic function of the logit. -/
def pairScore (a c : Fin 2 → Fin 512 → Fin 512 → EReal) (b1 : (⟨1, ![512]⟩ : Shape).Idx → EReal)
    (w2 : (⟨2, ![512, 256]⟩ : Shape).Idx → EReal) (b2 : (⟨1, ![256]⟩ : Shape).Idx → EReal)
    (w3 : Fin 256 → EReal) (b3 : (⟨1, ![1]⟩ : Shape).Idx → EReal) (b : Fin 2) (i j : Fin 512) : EReal :=
  Ideal.logistic (logit a c b1 w2 b2 w3 b3 b i j)

/-- The whole result array from the seven arguments: entry `(b, i, j)` is the score of the pair `(i, j)` of batch `b`,
    the projections taken through the two halves of the first matrix, the last layer's weights its one column. -/
def score (f : (⟨3, ![2, 512, 512]⟩ : Shape).Idx → EReal) (w1 : (⟨2, ![1024, 512]⟩ : Shape).Idx → EReal)
    (b1 : (⟨1, ![512]⟩ : Shape).Idx → EReal) (w2 : (⟨2, ![512, 256]⟩ : Shape).Idx → EReal)
    (b2 : (⟨1, ![256]⟩ : Shape).Idx → EReal) (w3 : (⟨2, ![256, 1]⟩ : Shape).Idx → EReal)
    (b3 : (⟨1, ![1]⟩ : Shape).Idx → EReal) : (⟨3, ![2, 512, 512]⟩ : Shape).Idx → EReal :=
  fun x => pairScore (proj f (topHalf w1)) (proj f (botHalf w1)) b1 w2 b2 (fun k => w3 (ix2 k (0 : Fin 1))) b3
    (x 0) (x 1) (x 2)

/-- The result array at explicit coordinates. -/
theorem score_apply (f : (⟨3, ![2, 512, 512]⟩ : Shape).Idx → EReal) (w1 : (⟨2, ![1024, 512]⟩ : Shape).Idx → EReal)
    (b1 : (⟨1, ![512]⟩ : Shape).Idx → EReal) (w2 : (⟨2, ![512, 256]⟩ : Shape).Idx → EReal)
    (b2 : (⟨1, ![256]⟩ : Shape).Idx → EReal) (w3 : (⟨2, ![256, 1]⟩ : Shape).Idx → EReal)
    (b3 : (⟨1, ![1]⟩ : Shape).Idx → EReal) (b : Fin 2) (i j : Fin 512) :
    score f w1 b1 w2 b2 w3 b3 (ix3 b i j)
      = pairScore (proj f (topHalf w1)) (proj f (botHalf w1)) b1 w2 b2 (fun k => w3 (ix2 k (0 : Fin 1))) b3 b i j := rfl

end Cert.Spec

end
-- ==== Proof.HostStretch.lean ====
/-
  What the first region finds: the three host operations before it.

  The program first cuts the 1024 × 512 first-layer matrix into its top and bottom 512 × 512 halves and reshapes the
  256 × 1 last-layer matrix into a vector of 256 weights; every argument array is left as launched. Read at an
  entry, the halves are rows `h` and `512 + h` of the matrix and the vector's entry `k` is the matrix's `(k, 0)`.
-/
import proofs.«159591_j68564857913750_1_alg».proof.Proof.Gen.KernelIdeal.Frame
import proofs.«159591_j68564857913750_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Entry

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Idealize.ShloMosaic.StableHlo

variable (m : (ℓ : Loc nD τ sig) → Buf (Elt Ideal) ℓ) (ρ : Dev nD → PrngReg)

/-! ## The arrays no host operation writes -/

theorem entry_arg0 (c : Dev nD) : V1 m ρ c main_arg0 = m ((c : Thread nD τ).loc main_arg0) := by
  show StableHlo.after hostOps0 (W0 m ρ c) (Proc.devRef .tc main_arg0) = _
  after_results
theorem entry_arg2 (c : Dev nD) : V1 m ρ c main_arg2 = m ((c : Thread nD τ).loc main_arg2) := by
  show StableHlo.after hostOps0 (W0 m ρ c) (Proc.devRef .tc main_arg2) = _
  after_results
theorem entry_arg3 (c : Dev nD) : V1 m ρ c main_arg3 = m ((c : Thread nD τ).loc main_arg3) := by
  show StableHlo.after hostOps0 (W0 m ρ c) (Proc.devRef .tc main_arg3) = _
  after_results
theorem entry_arg4 (c : Dev nD) : V1 m ρ c main_arg4 = m ((c : Thread nD τ).loc main_arg4) := by
  show StableHlo.after hostOps0 (W0 m ρ c) (Proc.devRef .tc main_arg4) = _
  after_results
theorem entry_arg6 (c : Dev nD) : V1 m ρ c main_arg6 = m ((c : Thread nD τ).loc main_arg6) := by
  show StableHlo.after hostOps0 (W0 m ρ c) (Proc.devRef .tc main_arg6) = _
  after_results

/-! ## The two halves of the first matrix and the column of the last -/

theorem entry_top (c : Dev nD) : V1 m ρ c main_v0
    = extractStridedSlice S512x512 ![0, 0] (m ((c : Thread nD τ).loc main_arg1)) slices_S1024x512_S512x512_0_0 := by
  show StableHlo.after hostOps0 (W0 m ρ c) (Proc.devRef .tc main_v0) = _
  after_results

theorem entry_bot (c : Dev nD) : V1 m ρ c main_v1
    = extractStridedSlice S512x512 ![512, 0] (m ((c : Thread nD τ).loc main_arg1)) slices_S1024x512_S512x512_512_0 := by
  show StableHlo.after hostOps0 (W0 m ρ c) (Proc.devRef .tc main_v1) = _
  after_results

theorem entry_col (c : Dev nD) : V1 m ρ c main_v2
    = shapeCast S256 (m ((c : Thread nD τ).loc main_arg5)) shapeCasts_S256x1_S256 := by
  show StableHlo.after hostOps0 (W0 m ρ c) (Proc.devRef .tc main_v2) = _
  after_results
  rfl

/-- Entry `(h, k)` of the top half is entry `(h, k)` of the matrix. -/
theorem entry_top_apply (c : Dev nD) (h k : Fin 512) :
    V1 m ρ c main_v0 (ix2 h k) = Cert.Spec.topHalf (m ((c : Thread nD τ).loc main_arg1)) h k := by
  rw [entry_top]
  unfold Cert.Spec.topHalf
  exact extractStridedSlice_apply ![0, 0] (m ((c : Thread nD τ).loc main_arg1)) slices_S1024x512_S512x512_0_0 (ix2 h k)
    (ix2 (⟨h.val, by omega⟩ : Fin 1024) k) (fun a => match a with
      | ⟨0, _⟩ => by show h.val = 0 + h.val; omega
      | ⟨1, _⟩ => by show k.val = 0 + k.val; omega)

/-- Entry `(h, k)` of the bottom half is entry `(512 + h, k)` of the matrix. -/
theorem entry_bot_apply (c : Dev nD) (h k : Fin 512) :
    V1 m ρ c main_v1 (ix2 h k) = Cert.Spec.botHalf (m ((c : Thread nD τ).loc main_arg1)) h k := by
  rw [entry_bot]
  unfold Cert.Spec.botHalf
  exact extractStridedSlice_apply ![512, 0] (m ((c : Thread nD τ).loc main_arg1)) slices_S1024x512_S512x512_512_0 (ix2 h k)
    (ix2 (⟨512 + h.val, by omega⟩ : Fin 1024) k) (fun a => match a with
      | ⟨0, _⟩ => by show 512 + h.val = 512 + h.val; omega
      | ⟨1, _⟩ => by show k.val = 0 + k.val; omega)

/-- Entry `k` of the weight vector is entry `(k, 0)` of the 256 × 1 matrix. -/
theorem entry_col_apply (c : Dev nD) (k : Fin 256) :
    V1 m ρ c main_v2 (ix1 k) = m ((c : Thread nD τ).loc main_arg5) (ix2 k (0 : Fin 1)) := by
  rw [entry_col]
  exact shapeCast_apply (m ((c : Thread nD τ).loc main_arg5)) shapeCasts_S256x1_S256 (ix1 k) (ix2 k (0 : Fin 1))
    (by
      show ((⟨2, ![256, 1]⟩ : Shape).rowMajor (ix2 k (0 : Fin 1))).val = ((⟨1, ![256]⟩ : Shape).rowMajor (ix1 k)).val
      rewrite [Shape.rowMajor_val_two, Shape.rowMajor_val_one]
      show k.val * 1 + 0 = k.val
      omega)

end Cert.KernelIdeal.Entry

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Region0.lean ====
/-
  The first region: the two projections.

  At grid point `b` the body multiplies batch `b`'s 512 × 512 block of the features by each half of the first
  layer's matrix (both staged whole), and writes the two products back as block `b` of the two result arrays.
  So after the region each result array holds, at `(b, s, k)`, the sum over `h` of the features at `(b, s, h)`
  times the half's entry `(h, k)`.
-/
import proofs.«159591_j68564857913750_1_alg».proof.Proof.Gen.KernelIdeal.Frame
import proofs.«159591_j68564857913750_1_alg».proof.Proof.Spec
import proofs.«159591_j68564857913750_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The body's product at an index -/

/-- A block index with its leading unit coordinate dropped. -/
theorem tail_ix3 (s k : Fin 512) : (fun a : Fin 2 => ix3 (0 : Fin 1) s k a.succ) = ix2 s k := by
  funext a; match a with | ⟨0, _⟩ => rfl | ⟨1, _⟩ => rfl

/-- A matrix index with a leading unit coordinate put in front. -/
theorem cons_ix2 (s h : Fin 512) :
    (Fin.cons (⟨0, Nat.one_pos⟩ : Fin 1) (ix2 s h) : S1x512x512.Idx) = ix3 (0 : Fin 1) s h := by
  funext a; match a with | ⟨0, _⟩ => rfl | ⟨1, _⟩ => rfl | ⟨2, _⟩ => rfl

/-- The reshaped, narrowed left operand at `(s, h)` is the block's entry `(0, s, h)`. -/
theorem lhs_entry (x0 : Vec Ideal S1x512x512 .f32) (s h : Fin 512) :
    k0_pay1 x0 (ix2 s h) = x0 (ix3 (0 : Fin 1) s h) := by
  unfold k0_pay1
  exact (shapeCast_dropUnit_apply ![512, 512] x0 _ (ix2 s h)).trans (congrArg x0 (cons_ix2 s h))

/-- The first store's value at `(0, s, k)`: row `s` of the block against column `k` of the matrix. -/
theorem pay2_apply (x0 : Vec Ideal S1x512x512 .f32) (x1 : Vec Ideal S512x512 .f32) (s k : Fin 512) :
    k0_pay2 x0 x1 (ix3 (0 : Fin 1) s k) = ∑ h : Fin 512, x0 (ix3 (0 : Fin 1) s h) * x1 (ix2 h k) := by
  unfold k0_pay2
  refine (shapeCast_addUnit_apply ![512, 512] _ _ (ix3 (0 : Fin 1) s k)).trans ?_
  rw [tail_ix3]
  refine (Cert.Lib.PlainDot.matmul_zero_apply none _ _ s k).trans ?_
  refine Finset.sum_congr rfl fun h _ => ?_
  exact congrArg₂ (· * ·) (lhs_entry x0 s h) (congrFun (shapeCast_self x1 _) (ix2 h k))

/-- The second store's value at `(0, s, k)`: the same product with the other matrix. -/
theorem pay3_apply (x0 : Vec Ideal S1x512x512 .f32) (x2 : Vec Ideal S512x512 .f32) (s k : Fin 512) :
    k0_pay3 x0 x2 (ix3 (0 : Fin 1) s k) = ∑ h : Fin 512, x0 (ix3 (0 : Fin 1) s h) * x2 (ix2 h k) := by
  unfold k0_pay3
  refine (shapeCast_addUnit_apply ![512, 512] _ _ (ix3 (0 : Fin 1) s k)).trans ?_
  rw [tail_ix3]
  refine (Cert.Lib.PlainDot.matmul_zero_apply none _ _ s k).trans ?_
  refine Finset.sum_congr rfl fun h _ => ?_
  exact congrArg₂ (· * ·) (lhs_entry x0 s h) (congrFun (shapeCast_self x2 _) (ix2 h k))

/-- The first store's value at any index of the block. -/
theorem pay2_at (x0 : Vec Ideal S1x512x512 .f32) (x1 : Vec Ideal S512x512 .f32) (y : S1x512x512.Idx) :
    k0_pay2 x0 x1 y = ∑ h : Fin 512, x0 (ix3 (0 : Fin 1) (y 1) h) * x1 (ix2 h (y 2)) := by
  have h0 : y 0 = (0 : Fin 1) := Fin.ext (show (y 0).val = 0 from Nat.lt_one_iff.1 (y 0).isLt)
  have hy : y = ix3 (0 : Fin 1) (y 1) (y 2) :=
    (eq_ix3 y).trans (congrArg (fun a : Fin 1 => ix3 a (y 1) (y 2)) h0)
  exact (congrArg (k0_pay2 x0 x1) hy).trans (pay2_apply x0 x1 (y 1) (y 2))

/-- The second store's value at any index of the block. -/
theorem pay3_at (x0 : Vec Ideal S1x512x512 .f32) (x2 : Vec Ideal S512x512 .f32) (y : S1x512x512.Idx) :
    k0_pay3 x0 x2 y = ∑ h : Fin 512, x0 (ix3 (0 : Fin 1) (y 1) h) * x2 (ix2 h (y 2)) := by
  have h0 : y 0 = (0 : Fin 1) := Fin.ext (show (y 0).val = 0 from Nat.lt_one_iff.1 (y 0).isLt)
  have hy : y = ix3 (0 : Fin 1) (y 1) (y 2) :=
    (eq_ix3 y).trans (congrArg (fun a : Fin 1 => ix3 a (y 1) (y 2)) h0)
  exact (congrArg (k0_pay3 x0 x2) hy).trans (pay3_apply x0 x2 (y 1) (y 2))

/-! ## From the blocks to the arrays -/

/-- The origin of a rank-3 block, as the constant-zero offset. -/
theorem off3_zero : (![0, 0, 0] : Fin 3 → Nat) = fun _ => 0 := funext fun a => by fin_cases a <;> rfl
/-- The origin of a matrix, as the constant-zero offset. -/
theorem off2_zero : (![0, 0] : Fin 2 → Nat) = fun _ => 0 := funext fun a => by fin_cases a <;> rfl

/-- What the first result array holds in the end. -/
abbrev topG (c : Dev nD) : S2x512x512.Idx → EReal :=
  fun x => Cert.Spec.proj (V c main_arg0) (fun h k => V c main_v0 (ix2 h k)) (x 0) (x 1) (x 2)

/-- What the second result array holds in the end. -/
abbrev botG (c : Dev nD) : S2x512x512.Idx → EReal :=
  fun x => Cert.Spec.proj (V c main_arg0) (fun h k => V c main_v1 (ix2 h k)) (x 0) (x 1) (x 2)

/-- The block indices over the grid: the features' and both results' blocks sit at batch `t`, rows and columns from
    zero; the two matrices are staged from their origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- What a point writes back into the first result array is its block of the projection. -/
theorem flushed_top (c : Dev nD) (t : Fin cfg0.N) :
    (dat0 (F := Ideal) V c).flushed 3 t = ((cfg0.win 3).blk t).view.read (Elt Ideal) (topG V c) := by
  show (cfg0.win 3).cut (grid0.coords t) ((dat0 V c).after 3 t) = _
  rw [after0_3]
  unfold out0_3
  rw [View.canon_unit_zero off3_zero]
  simp only [View.ld_unit_zero (S := S1x512x512) off3_zero, View.ld_unit_zero (S := S512x512) off2_zero]
  funext y
  show k0_pay2 (iblk0 V c 0 t) (iblk0 V c 1 t) y = topG V c (((cfg0.win 3).blk t).view.emb y)
  refine (pay2_at _ _ y).trans ?_
  obtain ⟨a0, a1, a2, b0, b1, _, _, d0, d1, d2, _, _, _⟩ := idx_facts t
  have hy0 : (y 0).val = 0 := Nat.lt_one_iff.1 (y 0).isLt
  refine Finset.sum_congr rfl fun h _ => ?_
  refine congrArg₂ (· * ·) ?_ ?_
  · show V c main_arg0 (((cfg0.win 0).blk t).view.emb (ix3 (0 : Fin 1) (y 1) h))
      = V c main_arg0 (ix3 ((((cfg0.win 3).blk t).view.emb y) 0) ((((cfg0.win 3).blk t).view.emb y) 1) h)
    refine congrArg (V c main_arg0) (funext fun a => Fin.ext ?_)
    match a with
    | ⟨0, _⟩ =>
      show win0_0.index t (0 : Fin 3) * 1 + 1 * 0 = win0_3.index t (0 : Fin 3) * 1 + 1 * (y 0).val
      omega
    | ⟨1, _⟩ =>
      show win0_0.index t (1 : Fin 3) * 512 + 1 * (y 1).val = win0_3.index t (1 : Fin 3) * 512 + 1 * (y 1).val
      omega
    | ⟨2, _⟩ =>
      show win0_0.index t (2 : Fin 3) * 512 + 1 * h.val = h.val
      omega
  · show V c main_v0 (((cfg0.win 1).blk t).view.emb (ix2 h (y 2)))
      = V c main_v0 (ix2 h ((((cfg0.win 3).blk t).view.emb y) 2))
    refine congrArg (V c main_v0) (funext fun a => Fin.ext ?_)
    match a with
    | ⟨0, _⟩ =>
      show win0_1.index t (0 : Fin 2) * 512 + 1 * h.val = h.val
      omega
    | ⟨1, _⟩ =>
      show win0_1.index t (1 : Fin 2) * 512 + 1 * (y 2).val = win0_3.index t (2 : Fin 3) * 512 + 1 * (y 2).val
      omega

/-- What a point writes back into the second result array is its block of the projection. -/
theorem flushed_bot (c : Dev nD) (t : Fin cfg0.N) :
    (dat0 (F := Ideal) V c).flushed 4 t = ((cfg0.win 4).blk t).view.read (Elt Ideal) (botG V c) := by
  show (cfg0.win 4).cut (grid0.coords t) ((dat0 V c).after 4 t) = _
  rw [after0_4]
  unfold out0_4
  rw [View.canon_unit_zero off3_zero]
  simp only [View.ld_unit_zero (S := S1x512x512) off3_zero, View.ld_unit_zero (S := S512x512) off2_zero]
  funext y
  show k0_pay3 (iblk0 V c 0 t) (iblk0 V c 2 t) y = botG V c (((cfg0.win 4).blk t).view.emb y)
  refine (pay3_at _ _ y).trans ?_
  obtain ⟨a0, a1, a2, _, _, b0, b1, _, _, _, d0, d1, d2⟩ := idx_facts t
  have hy0 : (y 0).val = 0 := Nat.lt_one_iff.1 (y 0).isLt
  refine Finset.sum_congr rfl fun h _ => ?_
  refine congrArg₂ (· * ·) ?_ ?_
  · show V c main_arg0 (((cfg0.win 0).blk t).view.emb (ix3 (0 : Fin 1) (y 1) h))
      = V c main_arg0 (ix3 ((((cfg0.win 4).blk t).view.emb y) 0) ((((cfg0.win 4).blk t).view.emb y) 1) h)
    refine congrArg (V c main_arg0) (funext fun a => Fin.ext ?_)
    match a with
    | ⟨0, _⟩ =>
      show win0_0.index t (0 : Fin 3) * 1 + 1 * 0 = win0_4.index t (0 : Fin 3) * 1 + 1 * (y 0).val
      omega
    | ⟨1, _⟩ =>
      show win0_0.index t (1 : Fin 3) * 512 + 1 * (y 1).val = win0_4.index t (1 : Fin 3) * 512 + 1 * (y 1).val
      omega
    | ⟨2, _⟩ =>
      show win0_0.index t (2 : Fin 3) * 512 + 1 * h.val = h.val
      omega
  · show V c main_v1 (((cfg0.win 2).blk t).view.emb (ix2 h (y 2)))
      = V c main_v1 (ix2 h ((((cfg0.win 4).blk t).view.emb y) 2))
    refine congrArg (V c main_v1) (funext fun a => Fin.ext ?_)
    match a with
    | ⟨0, _⟩ =>
      show win0_2.index t (0 : Fin 2) * 512 + 1 * h.val = h.val
      omega
    | ⟨1, _⟩ =>
      show win0_2.index t (1 : Fin 2) * 512 + 1 * (y 2).val = win0_4.index t (2 : Fin 3) * 512 + 1 * (y 2).val
      omega

/-- An index of the first result array is in point `t`'s block iff each coordinate is in the block's range. -/
theorem mem_blk_top (t : Fin cfg0.N) (i : S2x512x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v3_0).slice (win0_3.rect t)).set ↔ _
  rw [View.set_slice_whole, Rect.mem_set_unit]
  exact Iff.rfl

/-- The same for the second result array. -/
theorem mem_blk_bot (t : Fin cfg0.N) (i : S2x512x512.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v3_1).slice (win0_4.rect t)).set ↔ _
  rw [View.set_slice_whole, Rect.mem_set_unit]
  exact Iff.rfl

/-- Every index of the first result array lies in the block of the point numbered by its batch coordinate. -/
theorem cover_top (i : S2x512x512.Idx) :
    ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 512 := (i 2).isLt
  have hN : (i 0).val < grid0.N := lt_of_lt_of_eq hi0 N_0.symm
  obtain ⟨_, _, _, _, _, _, _, d0, d1, d2, _, _, _⟩ := idx_facts ⟨(i 0).val, hN⟩
  refine ⟨⟨(i 0).val, hN⟩, flush0_3 _, ?_⟩
  rw [mem_blk_top]
  intro a
  match a with
  | ⟨0, _⟩ =>
    show win0_3.index ⟨(i 0).val, hN⟩ (0 : Fin 3) * 1 ≤ (i 0).val
      ∧ (i 0).val < win0_3.index ⟨(i 0).val, hN⟩ (0 : Fin 3) * 1 + 1
    rw [show win0_3.index ⟨(i 0).val, hN⟩ (0 : Fin 3) = (i 0).val from d0]; omega
  | ⟨1, _⟩ =>
    show win0_3.index ⟨(i 0).val, hN⟩ (1 : Fin 3) * 512 ≤ (i 1).val
      ∧ (i 1).val < win0_3.index ⟨(i 0).val, hN⟩ (1 : Fin 3) * 512 + 512
    rw [d1]; omega
  | ⟨2, _⟩ =>
    show win0_3.index ⟨(i 0).val, hN⟩ (2 : Fin 3) * 512 ≤ (i 2).val
      ∧ (i 2).val < win0_3.index ⟨(i 0).val, hN⟩ (2 : Fin 3) * 512 + 512
    rw [d2]; omega

/-- The same for the second result array. -/
theorem cover_bot (i : S2x512x512.Idx) :
    ∃ t : Fin cfg0.N, (cfg0.win 4).flush t = true ∧ i ∈ ((cfg0.win 4).blk t).view.set := by
  have hi0 : (i 0).val < 2 := (i 0).isLt
  have hi1 : (i 1).val < 512 := (i 1).isLt
  have hi2 : (i 2).val < 512 := (i 2).isLt
  have hN : (i 0).val < grid0.N := lt_of_lt_of_eq hi0 N_0.symm
  obtain ⟨_, _, _, _, _, _, _, _, _, _, d0, d1, d2⟩ := idx_facts ⟨(i 0).val, hN⟩
  refine ⟨⟨(i 0).val, hN⟩, flush0_4 _, ?_⟩
  rw [mem_blk_bot]
  intro a
  match a with
  | ⟨0, _⟩ =>
    show win0_4.index ⟨(i 0).val, hN⟩ (0 : Fin 3) * 1 ≤ (i 0).val
      ∧ (i 0).val < win0_4.index ⟨(i 0).val, hN⟩ (0 : Fin 3) * 1 + 1
    rw [show win0_4.index ⟨(i 0).val, hN⟩ (0 : Fin 3) = (i 0).val from d0]; omega
  | ⟨1, _⟩ =>
    show win0_4.index ⟨(i 0).val, hN⟩ (1 : Fin 3) * 512 ≤ (i 1).val
      ∧ (i 1).val < win0_4.index ⟨(i 0).val, hN⟩ (1 : Fin 3) * 512 + 512
    rw [d1]; omega
  | ⟨2, _⟩ =>
    show win0_4.index ⟨(i 0).val, hN⟩ (2 : Fin 3) * 512 ≤ (i 2).val
      ∧ (i 2).val < win0_4.index ⟨(i 0).val, hN⟩ (2 : Fin 3) * 512 + 512
    rw [d2]; omega

/-! ## The two result arrays after the region -/

/-- The first result array after the region: the features through the matrix the second window stages. -/
theorem top_array (c : Dev nD) :
    (dat0 (F := Ideal) V c).arrAt 3 cfg0.N
      = fun x => Cert.Spec.proj (V c main_arg0) (fun h k => V c main_v0 (ix2 h k)) (x 0) (x 1) (x 2) :=
  (dat0 (F := Ideal) V c).arrAt_eq_of_cover 3 (topG V c) (fun t _ => flushed_top V c t) cover_top

/-- The second result array after the region: the features through the matrix the third window stages. -/
theorem bot_array (c : Dev nD) :
    (dat0 (F := Ideal) V c).arrAt 4 cfg0.N
      = fun x => Cert.Spec.proj (V c main_arg0) (fun h k => V c main_v1 (ix2 h k)) (x 0) (x 1) (x 2) :=
  (dat0 (F := Ideal) V c).arrAt_eq_of_cover 4 (botG V c) (fun t _ => flushed_bot V c t) cover_bot

end Cert.KernelIdeal.Layer1

end
-- ==== Proof.Region1Body.lean ====
/-
  The second region's body at one entry of its block.

  The body takes 32 rows of the first projection, 128 rows of the second, and the remaining weights whole; entry
  `(p, q)` of what it stores is the logistic function of the logit of the pair (row `p`, row `q`): the two rows
  and the bias added and clamped at zero, multiplied into the 512 × 256 matrix, the bias added and clamped, then the
  dot product with the 256 last-layer weights plus the last bias.
-/
import proofs.«159591_j68564857913750_1_alg».proof.Proof.Gen.KernelIdeal.Frame
import proofs.«159591_j68564857913750_1_alg».proof.Proof.Spec
import proofs.«159591_j68564857913750_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer23

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## Layout operations of the body, read at explicit coordinates

Each statement is over an arbitrary value array and arbitrary evidence of the shape relation, so it applies to the
body's terms whatever proof of the relation they carry. A shape cast keeps the row-major position; a broadcast reads
position zero on the operand's unit axes. -/

section Layout
variable {α : Type}

/-- Dropping the leading unit axis of a [1,32,512] block. -/
theorem cast_drop32 (v : S1x32x512.Idx → α) (h : S1x32x512.ShapeCasts S32x512) (p : Fin 32) (k : Fin 512) :
    shapeCast S32x512 v h (ix2 p k) = v (ix3 (0 : Fin 1) p k) :=
  shapeCast_apply v h _ _ (by
    rw [Shape.rowMajor_val_three, Shape.rowMajor_val_two]
    show (0 * 32 + p.val) * 512 + k.val = p.val * 512 + k.val
    omega)

/-- A unit axis put in the middle: [32,512] seen as [32,1,512]. -/
theorem cast_mid32 (v : S32x512.Idx → α) (h : S32x512.ShapeCasts S32x1x512) (p : Fin 32) (k : Fin 512) :
    shapeCast S32x1x512 v h (ix3 p (0 : Fin 1) k) = v (ix2 p k) :=
  shapeCast_apply v h _ _ (by
    rw [Shape.rowMajor_val_three, Shape.rowMajor_val_two]
    show p.val * 512 + k.val = (p.val * 1 + 0) * 512 + k.val
    omega)

/-- The 32 rows repeated along the second axis. -/
theorem bcast_row (v : S32x1x512.Idx → α) (h : S32x1x512.Broadcasts S32x128x512) (p : Fin 32) (q : Fin 128) (k : Fin 512) :
    broadcastTo S32x128x512 v h (ix3 p q k) = v (ix3 p (0 : Fin 1) k) :=
  broadcastTo_apply v h _ _ (fun a => match a with | ⟨0, _⟩ => rfl | ⟨1, _⟩ => rfl | ⟨2, _⟩ => rfl)

/-- Dropping the leading unit axis of a [1,128,512] block. -/
theorem cast_drop128 (v : S1x128x512.Idx → α) (h : S1x128x512.ShapeCasts S128x512) (q : Fin 128) (k : Fin 512) :
    shapeCast S128x512 v h (ix2 q k) = v (ix3 (0 : Fin 1) q k) :=
  shapeCast_apply v h _ _ (by
    rw [Shape.rowMajor_val_three, Shape.rowMajor_val_two]
    show (0 * 128 + q.val) * 512 + k.val = q.val * 512 + k.val
    omega)

/-- Putting the leading unit axis back: [128,512] seen as [1,128,512]. -/
theorem cast_add128 (v : S128x512.Idx → α) (h : S128x512.ShapeCasts S1x128x512) (q : Fin 128) (k : Fin 512) :
    shapeCast S1x128x512 v h (ix3 (0 : Fin 1) q k) = v (ix2 q k) :=
  shapeCast_apply v h _ _ (by
    rw [Shape.rowMajor_val_three, Shape.rowMajor_val_two]
    show q.val * 512 + k.val = (0 * 128 + q.val) * 512 + k.val
    omega)

/-- The 128 rows repeated along the first axis. -/
theorem bcast_col (v : S1x128x512.Idx → α) (h : S1x128x512.Broadcasts S32x128x512) (p : Fin 32) (q : Fin 128) (k : Fin 512) :
    broadcastTo S32x128x512 v h (ix3 p q k) = v (ix3 (0 : Fin 1) q k) :=
  broadcastTo_apply v h _ _ (fun a => match a with | ⟨0, _⟩ => rfl | ⟨1, _⟩ => rfl | ⟨2, _⟩ => rfl)

/-- A length-512 vector seen as [1,1,512]. -/
theorem cast_vec512 (v : S512.Idx → α) (h : S512.ShapeCasts S1x1x512) (k : Fin 512) :
    shapeCast S1x1x512 v h (ix3 (0 : Fin 1) (0 : Fin 1) k) = v (ix1 k) :=
  shapeCast_apply v h _ _ (by
    rw [Shape.rowMajor_val_three, Shape.rowMajor_val_one]
    show k.val = (0 * 1 + 0) * 512 + k.val
    omega)

/-- That vector repeated along the first two axes. -/
theorem bcast_vec512 (v : S1x1x512.Idx → α) (h : S1x1x512.Broadcasts S32x128x512) (p : Fin 32) (q : Fin 128) (k : Fin 512) :
    broadcastTo S32x128x512 v h (ix3 p q k) = v (ix3 (0 : Fin 1) (0 : Fin 1) k) :=
  broadcastTo_apply v h _ _ (fun a => match a with | ⟨0, _⟩ => rfl | ⟨1, _⟩ => rfl | ⟨2, _⟩ => rfl)

/-- The pair `(p, q)` as a row of the flattened 4096-row matrix. -/
def pairRow (p : Fin 32) (q : Fin 128) : Fin 4096 := ⟨p.val * 128 + q.val, by omega⟩

/-- Flattening the first two axes: row `p·128 + q` of [4096,512] is entry `(p, q)` of [32,128,512]. -/
theorem cast_flat (v : S32x128x512.Idx → α) (h : S32x128x512.ShapeCasts S4096x512) (p : Fin 32) (q : Fin 128) (k : Fin 512) :
    shapeCast S4096x512 v h (ix2 (pairRow p q) k) = v (ix3 p q k) :=
  shapeCast_apply v h _ _ (by
    rw [Shape.rowMajor_val_three, Shape.rowMajor_val_two]
    show (p.val * 128 + q.val) * 512 + k.val = (p.val * 128 + q.val) * 512 + k.val
    rfl)

/-- A length-256 vector seen as [1,256]. -/
theorem cast_vec256 (v : S256.Idx → α) (h : S256.ShapeCasts S1x256) (k : Fin 256) :
    shapeCast S1x256 v h (ix2 (0 : Fin 1) k) = v (ix1 k) :=
  shapeCast_apply v h _ _ (by
    rw [Shape.rowMajor_val_two, Shape.rowMajor_val_one]
    show k.val = 0 * 256 + k.val
    omega)

/-- That row repeated along the 4096 rows. -/
theorem bcast_vec256 (v : S1x256.Idx → α) (h : S1x256.Broadcasts S4096x256) (r : Fin 4096) (k : Fin 256) :
    broadcastTo S4096x256 v h (ix2 r k) = v (ix2 (0 : Fin 1) k) :=
  broadcastTo_apply v h _ _ (fun a => match a with | ⟨0, _⟩ => rfl | ⟨1, _⟩ => rfl)

/-- Splitting the rows again: entry `(p, q)` of [32,128,256] is row `p·128 + q` of [4096,256]. -/
theorem cast_unflat (v : S4096x256.Idx → α) (h : S4096x256.ShapeCasts S32x128x256) (p : Fin 32) (q : Fin 128) (k : Fin 256) :
    shapeCast S32x128x256 v h (ix3 p q k) = v (ix2 (pairRow p q) k) :=
  shapeCast_apply v h _ _ (by
    rw [Shape.rowMajor_val_three, Shape.rowMajor_val_two]
    show (p.val * 128 + q.val) * 256 + k.val = (p.val * 128 + q.val) * 256 + k.val
    rfl)

/-- A length-256 vector seen as [1,1,256]. -/
theorem cast_col256 (v : S256.Idx → α) (h : S256.ShapeCasts S1x1x256) (k : Fin 256) :
    shapeCast S1x1x256 v h (ix3 (0 : Fin 1) (0 : Fin 1) k) = v (ix1 k) :=
  shapeCast_apply v h _ _ (by
    rw [Shape.rowMajor_val_three, Shape.rowMajor_val_one]
    show k.val = (0 * 1 + 0) * 256 + k.val
    omega)

/-- That vector repeated along the first two axes. -/
theorem bcast_col256 (v : S1x1x256.Idx → α) (h : S1x1x256.Broadcasts S32x128x256) (p : Fin 32) (q : Fin 128) (k : Fin 256) :
    broadcastTo S32x128x256 v h (ix3 p q k) = v (ix3 (0 : Fin 1) (0 : Fin 1) k) :=
  broadcastTo_apply v h _ _ (fun a => match a with | ⟨0, _⟩ => rfl | ⟨1, _⟩ => rfl | ⟨2, _⟩ => rfl)

/-- A trailing unit axis added: [32,128] seen as [32,128,1]. -/
theorem cast_keep (v : S32x128.Idx → α) (h : S32x128.ShapeCasts S32x128x1) (p : Fin 32) (q : Fin 128) :
    shapeCast S32x128x1 v h (ix3 p q (0 : Fin 1)) = v (ix2 p q) :=
  shapeCast_apply v h _ _ (by
    rw [Shape.rowMajor_val_three, Shape.rowMajor_val_two]
    show p.val * 128 + q.val = (p.val * 128 + q.val) * 1 + 0
    omega)

/-- The one-entry vector seen as [1,1,1]. -/
theorem cast_one (v : S1.Idx → α) (h : S1.ShapeCasts S1x1x1) :
    shapeCast S1x1x1 v h (ix3 (0 : Fin 1) (0 : Fin 1) (0 : Fin 1)) = v (ix1 (0 : Fin 1)) :=
  shapeCast_apply v h _ _ (by
    rw [Shape.rowMajor_val_three, Shape.rowMajor_val_one]
    show 0 = (0 * 1 + 0) * 1 + 0
    rfl)

/-- That entry repeated over the block. -/
theorem bcast_one (v : S1x1x1.Idx → α) (h : S1x1x1.Broadcasts S32x128x1) (p : Fin 32) (q : Fin 128) :
    broadcastTo S32x128x1 v h (ix3 p q (0 : Fin 1)) = v (ix3 (0 : Fin 1) (0 : Fin 1) (0 : Fin 1)) :=
  broadcastTo_apply v h _ _ (fun a => match a with | ⟨0, _⟩ => rfl | ⟨1, _⟩ => rfl | ⟨2, _⟩ => rfl)

/-- The trailing unit axis dropped: [32,128,1] seen as [32,128]. -/
theorem cast_unkeep (v : S32x128x1.Idx → α) (h : S32x128x1.ShapeCasts S32x128) (p : Fin 32) (q : Fin 128) :
    shapeCast S32x128 v h (ix2 p q) = v (ix3 p q (0 : Fin 1)) :=
  shapeCast_apply v h _ _ (by
    rw [Shape.rowMajor_val_three, Shape.rowMajor_val_two]
    show (p.val * 128 + q.val) * 1 + 0 = p.val * 128 + q.val
    omega)

/-- A leading unit axis added: [32,128] seen as [1,32,128]. -/
theorem cast_lead (v : S32x128.Idx → α) (h : S32x128.ShapeCasts S1x32x128) (p : Fin 32) (q : Fin 128) :
    shapeCast S1x32x128 v h (ix3 (0 : Fin 1) p q) = v (ix2 p q) :=
  shapeCast_apply v h _ _ (by
    rw [Shape.rowMajor_val_three, Shape.rowMajor_val_two]
    show p.val * 128 + q.val = (0 * 32 + p.val) * 128 + q.val
    omega)

end Layout

/-! ## The two contractions -/

/-- The sum over the last axis of a [32,128,256] array, at `(p, q)`: the 256 entries `(p, q, k)`. -/
theorem lane_sum (v : FVec Ideal S32x128x256 .f32) (h : S32x128x256.Reduces [2] S32x128) (hφ : FKind.Formats .f32)
    (hacc : (0x00000000#32 : BitVec 32) = FKind.add.neutral .f32 hφ) (p : Fin 32) (q : Fin 128) :
    multiReduction (F := Ideal) .add [2] S32x128 v 0x00000000#32 h hφ hacc (ix2 p q) = ∑ k : Fin 256, v (ix3 p q k) := by
  refine (Ideal.multiReduction_add_single v _ h hφ hacc (ix2 p q)).trans ?_
  refine Finset.sum_congr rfl fun k _ => congrArg v ?_
  exact funext fun a => Fin.ext (match a with | ⟨0, _⟩ => rfl | ⟨1, _⟩ => rfl | ⟨2, _⟩ => rfl)

/-- The product of a 4096 × 512 by a 512 × 256 matrix into the zero accumulator, at an entry. -/
theorem matmul_entry (prec : Option ContractPrecision) (lhs : FVec Ideal S4096x512 .bf16) (rhs : FVec Ideal S512x256 .bf16)
    (r : Fin 4096) (k : Fin 256) :
    matmul dot_S4096x512_S512x256_S4096x256_1_0_0_1_n_n prec lhs rhs (constant (F := Ideal) S4096x256 .f32 0x00000000#32) (ix2 r k)
      = ∑ h : Fin 512, lhs (ix2 r h) * rhs (ix2 h k) :=
  Cert.Lib.PlainDot.matmul_zero_apply prec lhs rhs r k

/-! ## The body's values, stage by stage

The body's arithmetic cut into six values, each a function of the blocks loaded and of the stage before it, in the
body's own order of operations. Their composition is the body's one term. -/

/-- The logistic function of an array, lane by lane. -/
theorem logistic_apply {s : Shape} {φ : FTy} (a : FVec Ideal s φ) (i : s.Idx) : logistic a i = Ideal.logistic (a i) := rfl

/-- The first hidden layer on the block: rows of the two projections and the bias added, clamped at zero. -/
def bodyHid1 (v0 : Vec Ideal S1x32x512 .f32) (v2 : Vec Ideal S1x128x512 .f32) (v4 : Vec Ideal S512 .f32) : FVec Ideal S32x128x512 .f32 :=
  have v1 : FVec Ideal S32x512 .f32 := shapeCast S32x512 v0 Gen.shapeCasts_S1x32x512_S32x512
  have v3 : FVec Ideal S128x512 .f32 := shapeCast S128x512 v2 Gen.shapeCasts_S1x128x512_S128x512
  have v5 : FVec Ideal S32x1x512 .f32 := shapeCast S32x1x512 v1 Gen.shapeCasts_S32x512_S32x1x512
  have v6 : FVec Ideal S1x128x512 .f32 := shapeCast S1x128x512 v3 Gen.shapeCasts_S128x512_S1x128x512
  have v7 : FVec Ideal S32x128x512 .f32 := broadcastTo S32x128x512 v5 Gen.broadcasts_S32x1x512_S32x128x512
  have v8 : FVec Ideal S32x128x512 .f32 := broadcastTo S32x128x512 v6 Gen.broadcasts_S1x128x512_S32x128x512
  have v9 : FVec Ideal S32x128x512 .f32 := addf v7 v8
  have v10 : FVec Ideal S1x1x512 .f32 := shapeCast S1x1x512 v4 Gen.shapeCasts_S512_S1x1x512
  have v11 : FVec Ideal S32x128x512 .f32 := broadcastTo S32x128x512 v10 Gen.broadcasts_S1x1x512_S32x128x512
  have v12 : FVec Ideal S32x128x512 .f32 := addf v9 v11
  have cst : Ideal .f32 := Scalar.ofBits .f32 0x00000000#32
  have v13 : FVec Ideal S32x128x512 .f32 := broadcast S32x128x512 cst
  maximumf v12 v13

/-- The first hidden layer as the left operand of the second layer's product: one row per pair. -/
def bodyLhs2 (v0 : Vec Ideal S1x32x512 .f32) (v2 : Vec Ideal S1x128x512 .f32) (v4 : Vec Ideal S512 .f32) : FVec Ideal S4096x512 .bf16 :=
  have v15 : FVec Ideal S32x128x512 .bf16 := truncf .bf16 (bodyHid1 v0 v2 v4) Gen.bitsLt_bf16_f32
  shapeCast S4096x512 v15 Gen.shapeCasts_S32x128x512_S4096x512

/-- The second layer's product, into the zero accumulator. -/
def bodyProd2 (v0 : Vec Ideal S1x32x512 .f32) (v2 : Vec Ideal S1x128x512 .f32) (v4 : Vec Ideal S512 .f32)
    (v17 : Vec Ideal S512x256 .f32) : FVec Ideal S4096x256 .f32 :=
  have v18 : FVec Ideal S512x256 .bf16 := truncf .bf16 v17 Gen.bitsLt_bf16_f32
  have cst_8 : FVec Ideal S4096x256 .f32 := constant S4096x256 .f32 0x00000000#32
  matmul dot_S4096x512_S512x256_S4096x256_1_0_0_1_n_n none (bodyLhs2 v0 v2 v4) v18 cst_8

/-- The second hidden layer on the block: the product plus its bias, clamped at zero, the pairs' rows split again. -/
def bodyHid2 (v0 : Vec Ideal S1x32x512 .f32) (v2 : Vec Ideal S1x128x512 .f32) (v4 : Vec Ideal S512 .f32)
    (v17 : Vec Ideal S512x256 .f32) (v20 : Vec Ideal S256 .f32) : FVec Ideal S32x128x256 .f32 :=
  have v21 : FVec Ideal S1x256 .f32 := shapeCast S1x256 v20 Gen.shapeCasts_S256_S1x256
  have v22 : FVec Ideal S4096x256 .f32 := broadcastTo S4096x256 v21 Gen.broadcasts_S1x256_S4096x256
  have v23 : FVec Ideal S4096x256 .f32 := addf (bodyProd2 v0 v2 v4 v17) v22
  have cst_10 : Ideal .f32 := Scalar.ofBits .f32 0x00000000#32
  have v24 : FVec Ideal S4096x256 .f32 := broadcast S4096x256 cst_10
  have v25 : FVec Ideal S4096x256 .f32 := maximumf v23 v24
  shapeCast S32x128x256 v25 Gen.shapeCasts_S4096x256_S32x128x256

/-- The last layer's dot product: the second hidden layer against the 256 weights, summed over the last axis. -/
def bodyDot3 (v0 : Vec Ideal S1x32x512 .f32) (v2 : Vec Ideal S1x128x512 .f32) (v4 : Vec Ideal S512 .f32)
    (v17 : Vec Ideal S512x256 .f32) (v20 : Vec Ideal S256 .f32) (v27 : Vec Ideal S256 .f32) : FVec Ideal S32x128 .f32 :=
  have v28 : FVec Ideal S256 .f32 := shapeCast S256 v27 Gen.shapeCasts_S256_S256
  have v30 : FVec Ideal S1x1x256 .f32 := shapeCast S1x1x256 v28 Gen.shapeCasts_S256_S1x1x256
  have v31 : FVec Ideal S32x128x256 .f32 := broadcastTo S32x128x256 v30 Gen.broadcasts_S1x1x256_S32x128x256
  have v32 : FVec Ideal S32x128x256 .f32 := mulf (bodyHid2 v0 v2 v4 v17 v20) v31
  multiReduction .add [2] S32x128 v32 0x00000000#32 Gen.reduces_S32x128x256_S32x128 (.inl rfl) rfl

/-- The block of scores: the dot product plus the last bias, through the logistic function. -/
def bodyOut (v0 : Vec Ideal S1x32x512 .f32) (v2 : Vec Ideal S1x128x512 .f32) (v4 : Vec Ideal S512 .f32)
    (v17 : Vec Ideal S512x256 .f32) (v20 : Vec Ideal S256 .f32) (v27 : Vec Ideal S256 .f32) (v29 : Vec Ideal S1 .f32) :
    FVec Ideal S32x128 .f32 :=
  have v34 : FVec Ideal S32x128x1 .f32 := shapeCast S32x128x1 (bodyDot3 v0 v2 v4 v17 v20 v27) Gen.shapeCasts_S32x128_S32x128x1
  have v35 : FVec Ideal S1x1x1 .f32 := shapeCast S1x1x1 v29 Gen.shapeCasts_S1_S1x1x1
  have v36 : FVec Ideal S32x128x1 .f32 := broadcastTo S32x128x1 v35 Gen.broadcasts_S1x1x1_S32x128x1
  have v37 : FVec Ideal S32x128x1 .f32 := addf v34 v36
  have v38 : FVec Ideal S32x128 .f32 := shapeCast S32x128 v37 Gen.shapeCasts_S32x128x1_S32x128
  logistic v38

/-- The body's one term is the composition of the six stages. -/
theorem k1_pay2_eq_bodyOut (x0 : Vec Ideal S1x32x512 .f32) (x1 : Vec Ideal S1x128x512 .f32) (x2 : Vec Ideal S512 .f32)
    (x3 : Vec Ideal S512x256 .f32) (x4 : Vec Ideal S256 .f32) (x5 : Vec Ideal S256 .f32) (x6 : Vec Ideal S1 .f32) :
    k1_pay2 x0 x1 x2 x3 x4 x5 x6 = bodyOut x0 x1 x2 x3 x4 x5 x6 := rfl

section Stages
variable (x0 : Vec Ideal S1x32x512 .f32) (x1 : Vec Ideal S1x128x512 .f32) (x2 : Vec Ideal S512 .f32)
  (x3 : Vec Ideal S512x256 .f32) (x4 : Vec Ideal S256 .f32) (x5 : Vec Ideal S256 .f32) (x6 : Vec Ideal S1 .f32)

/-- The first hidden layer at `(p, q, h)`. -/
theorem bodyHid1_apply (p : Fin 32) (q : Fin 128) (h : Fin 512) :
    bodyHid1 x0 x1 x2 (ix3 p q h)
      = max (x0 (ix3 (0 : Fin 1) p h) + x1 (ix3 (0 : Fin 1) q h) + x2 (ix1 h)) Cert.Spec.zero := by
  unfold bodyHid1
  simp only [maximumf_apply, addf_apply, broadcast_apply, bcast_row, cast_mid32, cast_drop32, bcast_col, cast_add128,
    cast_drop128, bcast_vec512, cast_vec512]
  rfl

end Stages

section Stages2
variable (x0 : Vec Ideal S1x32x512 .f32) (x1 : Vec Ideal S1x128x512 .f32) (x2 : Vec Ideal S512 .f32)
  (x3 : Vec Ideal S512x256 .f32) (x4 : Vec Ideal S256 .f32) (x5 : Vec Ideal S256 .f32) (x6 : Vec Ideal S1 .f32)

/-- The product's left operand at the pair's row: the first hidden layer of the pair. -/
theorem bodyLhs2_apply (p : Fin 32) (q : Fin 128) (h : Fin 512) :
    bodyLhs2 x0 x1 x2 (ix2 (pairRow p q) h)
      = max (x0 (ix3 (0 : Fin 1) p h) + x1 (ix3 (0 : Fin 1) q h) + x2 (ix1 h)) Cert.Spec.zero := by
  unfold bodyLhs2
  exact (cast_flat _ _ p q h).trans (bodyHid1_apply x0 x1 x2 p q h)

/-- The second layer's product at the pair's row and column `k`: the sum over the 512 hidden units. -/
theorem bodyProd2_apply (p : Fin 32) (q : Fin 128) (k : Fin 256) :
    bodyProd2 x0 x1 x2 x3 (ix2 (pairRow p q) k)
      = ∑ h : Fin 512, max (x0 (ix3 (0 : Fin 1) p h) + x1 (ix3 (0 : Fin 1) q h) + x2 (ix1 h)) Cert.Spec.zero * x3 (ix2 h k) := by
  unfold bodyProd2
  refine (matmul_entry none _ _ (pairRow p q) k).trans ?_
  refine Finset.sum_congr rfl fun h _ => ?_
  exact congrArg (· * x3 (ix2 h k)) (bodyLhs2_apply x0 x1 x2 p q h)

/-- The second hidden layer at `(p, q, k)`. -/
theorem bodyHid2_apply (p : Fin 32) (q : Fin 128) (k : Fin 256) :
    bodyHid2 x0 x1 x2 x3 x4 (ix3 p q k)
      = max (∑ h : Fin 512, max (x0 (ix3 (0 : Fin 1) p h) + x1 (ix3 (0 : Fin 1) q h) + x2 (ix1 h)) Cert.Spec.zero * x3 (ix2 h k)
          + x4 (ix1 k)) Cert.Spec.zero := by
  unfold bodyHid2
  simp only [cast_unflat, maximumf_apply, addf_apply, broadcast_apply, bcast_vec256, cast_vec256, bodyProd2_apply]
  rfl

/-- The last layer's dot product at `(p, q)`. -/
theorem bodyDot3_apply (p : Fin 32) (q : Fin 128) :
    bodyDot3 x0 x1 x2 x3 x4 x5 (ix2 p q)
      = ∑ k : Fin 256,
          max (∑ h : Fin 512, max (x0 (ix3 (0 : Fin 1) p h) + x1 (ix3 (0 : Fin 1) q h) + x2 (ix1 h)) Cert.Spec.zero * x3 (ix2 h k)
            + x4 (ix1 k)) Cert.Spec.zero * x5 (ix1 k) := by
  unfold bodyDot3
  refine (lane_sum _ _ _ _ p q).trans ?_
  refine Finset.sum_congr rfl fun k _ => ?_
  simp only [mulf_apply, bcast_col256, cast_col256, shapeCast_self, bodyHid2_apply]

/-- The block of scores at `(p, q)`. -/
theorem bodyOut_apply (p : Fin 32) (q : Fin 128) :
    bodyOut x0 x1 x2 x3 x4 x5 x6 (ix2 p q)
      = Ideal.logistic (∑ k : Fin 256,
          max (∑ h : Fin 512, max (x0 (ix3 (0 : Fin 1) p h) + x1 (ix3 (0 : Fin 1) q h) + x2 (ix1 h)) Cert.Spec.zero * x3 (ix2 h k)
            + x4 (ix1 k)) Cert.Spec.zero * x5 (ix1 k) + x6 (ix1 (0 : Fin 1))) := by
  unfold bodyOut
  simp only [logistic_apply, cast_unkeep, addf_apply, cast_keep, bcast_one, cast_one, bodyDot3_apply]

end Stages2

/-- Entry `(p, q)` of the block the body stores, from the blocks it loads. -/
theorem payload_apply (x0 : Vec Ideal S1x32x512 .f32) (x1 : Vec Ideal S1x128x512 .f32) (x2 : Vec Ideal S512 .f32)
    (x3 : Vec Ideal S512x256 .f32) (x4 : Vec Ideal S256 .f32) (x5 : Vec Ideal S256 .f32) (x6 : Vec Ideal S1 .f32)
    (p : Fin 32) (q : Fin 128) :
    k1_pay1 (F := Ideal) (k1_pay2 x0 x1 x2 x3 x4 x5 x6) (ix3 (0 : Fin 1) p q)
      = Ideal.logistic (∑ k : Fin 256,
          max (∑ h : Fin 512, max (x0 (ix3 (0 : Fin 1) p h) + x1 (ix3 (0 : Fin 1) q h) + x2 (ix1 h)) Cert.Spec.zero
                * x3 (ix2 h k) + x4 (ix1 k)) Cert.Spec.zero
            * x5 (ix1 k) + x6 (ix1 (0 : Fin 1))) := by
  rw [k1_pay2_eq_bodyOut]
  unfold k1_pay1
  exact (cast_lead _ _ p q).trans (bodyOut_apply x0 x1 x2 x3 x4 x5 x6 p q)

end Cert.KernelIdeal.Layer23

end
-- ==== Proof.Region1.lean ====
/-
  The second region: every pair's score.

  Grid point `(b, i, j)` stages rows `32 i … 32 i + 31` of the first projection of batch `b`, rows
  `128 j … 128 j + 127` of the second, and writes back the 32 × 128 block `(i, j)` of batch `b`'s scores. The blocks
  tile the result array, so after the region its entry `(b, r, s)` is the score of the pair (row `r`, row `s`).
-/
import proofs.«159591_j68564857913750_1_alg».proof.Proof.Gen.KernelIdeal.Frame
import proofs.«159591_j68564857913750_1_alg».proof.Proof.Spec
import proofs.«159591_j68564857913750_1_alg».proof.Proof.Region1Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pairs

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.KernelIdeal.Layer23

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The scores of all pairs, from the arrays the region finds: the two projections, the biases and the weights. -/
abbrev scores (c : Dev nD) : S2x512x512.Idx → EReal := fun x =>
  Cert.Spec.pairScore (fun b s k => V c main_v3_0 (ix3 b s k)) (fun b s k => V c main_v3_1 (ix3 b s k))
    (V c main_arg2) (V c main_arg3) (V c main_arg4) (fun k => V c main_v2 (ix1 k)) (V c main_arg6) (x 0) (x 1) (x 2)

/-- How the windows move over the grid: the first projection's block follows the output's batch and row block, the
    second its batch and column block, the weights stay, and the output's block indices fill 2 × 16 × 4. -/
theorem index_facts : ∀ t : Fin cfg1.N,
    win1_0.index t (0 : Fin 3) = win1_7.index t (0 : Fin 3) ∧ win1_0.index t (1 : Fin 3) = win1_7.index t (1 : Fin 3)
    ∧ win1_0.index t (2 : Fin 3) = 0
    ∧ win1_1.index t (0 : Fin 3) = win1_7.index t (0 : Fin 3) ∧ win1_1.index t (1 : Fin 3) = win1_7.index t (2 : Fin 3)
    ∧ win1_1.index t (2 : Fin 3) = 0
    ∧ win1_2.index t (0 : Fin 1) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (0 : Fin 3) ≤ 1 ∧ win1_7.index t (1 : Fin 3) ≤ 15 ∧ win1_7.index t (2 : Fin 3) ≤ 3 :=
  (by decide +kernel : ∀ t : Fin grid1.N, _)

/-- Every block of the result array is some grid point's. -/
theorem index_onto : ∀ (q0 : Fin 2) (q1 : Fin 16) (q2 : Fin 4), ∃ t : Fin cfg1.N, win1_7.index t = ![q0.val, q1.val, q2.val] :=
  (by decide +kernel : ∀ (q0 : Fin 2) (q1 : Fin 16) (q2 : Fin 4), ∃ t : Fin grid1.N, win1_7.index t = ![q0.val, q1.val, q2.val])

/-- What grid point `t` writes back is its block of the scores. -/
theorem flushed_eq (c : Dev nD) (t : Fin cfg1.N) :
    (dat1 (F := Ideal) V c).flushed 7 t = ((cfg1.win 7).blk t).view.read (Elt Ideal) (scores V c) := by
  show (cfg1.win 7).cut (grid1.coords t) ((dat1 V c).after 7 t) = _
  rw [after1_7]
  unfold out1_7
  rw [View.canon_unit_zero zeros3]
  simp only [View.ld_unit_zero (S := S1x32x512) zeros3, View.ld_unit_zero (S := S1x128x512) zeros3,
    View.ld_unit_zero (S := S512) zeros1, View.ld_unit_zero (S := S512x256) zeros2, View.ld_unit_zero (S := S256) zeros1,
    View.ld_unit_zero (S := S1) zeros1]
  obtain ⟨e00, e01, e02, e10, e11, e12, e2, e30, e31, e4, e5, e6, -, -, -⟩ := index_facts t
  funext y
  obtain ⟨z, p, q, rfl⟩ : ∃ (z : Fin 1) (p : Fin 32) (q : Fin 128), y = ix3 z p q := ⟨y 0, y 1, y 2, eq_ix3 y⟩
  obtain rfl : z = 0 := Subsingleton.elim _ _
  refine (payload_apply (iblk1 V c 0 t) (iblk1 V c 1 t) (iblk1 V c 2 t) (iblk1 V c 3 t) (iblk1 V c 4 t) (iblk1 V c 5 t)
    (iblk1 V c 6 t) p q).trans ?_
  rw [View.read_apply]
  have hA : ∀ h : Fin 512, iblk1 V c 0 t (ix3 (0 : Fin 1) p h)
      = V c main_v3_0 (ix3 ((((cfg1.win 7).blk t).view.emb (ix3 (0 : Fin 1) p q)) 0) ((((cfg1.win 7).blk t).view.emb (ix3 (0 : Fin 1) p q)) 1) h) := by
    intro h
    show V c main_v3_0 (((cfg1.win 0).blk t).view.emb (ix3 (0 : Fin 1) p h)) = _
    refine congrArg (V c main_v3_0) (funext fun a => Fin.ext ?_)
    match a with
    | ⟨0, _⟩ => show win1_0.index t (0 : Fin 3) * 1 + 1 * 0 = win1_7.index t (0 : Fin 3) * 1 + 1 * 0; omega
    | ⟨1, _⟩ => show win1_0.index t (1 : Fin 3) * 32 + 1 * p.val = win1_7.index t (1 : Fin 3) * 32 + 1 * p.val; omega
    | ⟨2, _⟩ => show win1_0.index t (2 : Fin 3) * 512 + 1 * h.val = h.val; omega
  have hC : ∀ h : Fin 512, iblk1 V c 1 t (ix3 (0 : Fin 1) q h)
      = V c main_v3_1 (ix3 ((((cfg1.win 7).blk t).view.emb (ix3 (0 : Fin 1) p q)) 0) ((((cfg1.win 7).blk t).view.emb (ix3 (0 : Fin 1) p q)) 2) h) := by
    intro h
    show V c main_v3_1 (((cfg1.win 1).blk t).view.emb (ix3 (0 : Fin 1) q h)) = _
    refine congrArg (V c main_v3_1) (funext fun a => Fin.ext ?_)
    match a with
    | ⟨0, _⟩ => show win1_1.index t (0 : Fin 3) * 1 + 1 * 0 = win1_7.index t (0 : Fin 3) * 1 + 1 * 0; omega
    | ⟨1, _⟩ => show win1_1.index t (1 : Fin 3) * 128 + 1 * q.val = win1_7.index t (2 : Fin 3) * 128 + 1 * q.val; omega
    | ⟨2, _⟩ => show win1_1.index t (2 : Fin 3) * 512 + 1 * h.val = h.val; omega
  have hb1 : ∀ h : Fin 512, iblk1 V c 2 t (ix1 h) = V c main_arg2 (ix1 h) := by
    intro h
    show V c main_arg2 (((cfg1.win 2).blk t).view.emb (ix1 h)) = _
    refine congrArg (V c main_arg2) (funext fun a => Fin.ext ?_)
    match a with
    | ⟨0, _⟩ => show win1_2.index t (0 : Fin 1) * 512 + 1 * h.val = h.val; omega
  have hw2 : ∀ (h : Fin 512) (k : Fin 256), iblk1 V c 3 t (ix2 h k) = V c main_arg3 (ix2 h k) := by
    intro h k
    show V c main_arg3 (((cfg1.win 3).blk t).view.emb (ix2 h k)) = _
    refine congrArg (V c main_arg3) (funext fun a => Fin.ext ?_)
    match a with
    | ⟨0, _⟩ => show win1_3.index t (0 : Fin 2) * 512 + 1 * h.val = h.val; omega
    | ⟨1, _⟩ => show win1_3.index t (1 : Fin 2) * 256 + 1 * k.val = k.val; omega
  have hb2 : ∀ k : Fin 256, iblk1 V c 4 t (ix1 k) = V c main_arg4 (ix1 k) := by
    intro k
    show V c main_arg4 (((cfg1.win 4).blk t).view.emb (ix1 k)) = _
    refine congrArg (V c main_arg4) (funext fun a => Fin.ext ?_)
    match a with
    | ⟨0, _⟩ => show win1_4.index t (0 : Fin 1) * 256 + 1 * k.val = k.val; omega
  have hw3 : ∀ k : Fin 256, iblk1 V c 5 t (ix1 k) = V c main_v2 (ix1 k) := by
    intro k
    show V c main_v2 (((cfg1.win 5).blk t).view.emb (ix1 k)) = _
    refine congrArg (V c main_v2) (funext fun a => Fin.ext ?_)
    match a with
    | ⟨0, _⟩ => show win1_5.index t (0 : Fin 1) * 256 + 1 * k.val = k.val; omega
  have hb3 : iblk1 V c 6 t (ix1 (0 : Fin 1)) = V c main_arg6 (ix1 (0 : Fin 1)) := by
    show V c main_arg6 (((cfg1.win 6).blk t).view.emb (ix1 (0 : Fin 1))) = _
    refine congrArg (V c main_arg6) (funext fun a => Fin.ext ?_)
    match a with
    | ⟨0, _⟩ => show win1_6.index t (0 : Fin 1) * 1 + 1 * 0 = 0; omega
  simp only [hA, hC, hb1, hw2, hb2, hw3, hb3]
  rfl

/-- An index of the result array is in grid point `t`'s block iff each coordinate is in the block's range. -/
theorem mem_block (t : Fin cfg1.N) (x : S2x512x512.Idx) :
    x ∈ ((cfg1.win 7).blk t).view.set ↔ ∀ a : Fin 3, win1_7.index t a * S1x32x128.size a ≤ (x a).val
      ∧ (x a).val < win1_7.index t a * S1x32x128.size a + S1x32x128.size a := by
  show x ∈ ((View.whole main_v4).slice (win1_7.rect t)).set ↔ _
  rw [View.set_slice_whole, Rect.mem_set_unit]
  exact Iff.rfl

/-- Every entry `(b, r, s)` of the result array lies in the block of the grid point `(b, r / 32, s / 128)`. -/
theorem covered (x : S2x512x512.Idx) :
    ∃ t : Fin cfg1.N, (cfg1.win 7).flush t = true ∧ x ∈ ((cfg1.win 7).blk t).view.set := by
  have h0 : (x 0).val < 2 := (x 0).isLt
  have h1 : (x 1).val < 512 := (x 1).isLt
  have h2 : (x 2).val < 512 := (x 2).isLt
  obtain ⟨t, ht⟩ := index_onto ⟨(x 0).val, h0⟩ ⟨(x 1).val / 32, by omega⟩ ⟨(x 2).val / 128, by omega⟩
  have q0 : win1_7.index t (0 : Fin 3) = (x 0).val := congrFun ht 0
  have q1 : win1_7.index t (1 : Fin 3) = (x 1).val / 32 := congrFun ht 1
  have q2 : win1_7.index t (2 : Fin 3) = (x 2).val / 128 := congrFun ht 2
  refine ⟨t, flush1_7 t, ?_⟩
  rw [mem_block]
  intro a
  match a with
  | ⟨0, _⟩ => show win1_7.index t (0 : Fin 3) * 1 ≤ (x 0).val ∧ (x 0).val < win1_7.index t (0 : Fin 3) * 1 + 1; omega
  | ⟨1, _⟩ => show win1_7.index t (1 : Fin 3) * 32 ≤ (x 1).val ∧ (x 1).val < win1_7.index t (1 : Fin 3) * 32 + 32; omega
  | ⟨2, _⟩ => show win1_7.index t (2 : Fin 3) * 128 ≤ (x 2).val ∧ (x 2).val < win1_7.index t (2 : Fin 3) * 128 + 128; omega

/-- The result array after the region, from the arrays the region finds. -/
theorem score_array (c : Dev nD) :
    (dat1 (F := Ideal) V c).arrAt 7 cfg1.N
      = fun x => Cert.Spec.pairScore (fun b s k => V c main_v3_0 (ix3 b s k)) (fun b s k => V c main_v3_1 (ix3 b s k))
          (V c main_arg2) (V c main_arg3) (V c main_arg4) (fun k => V c main_v2 (ix1 k)) (V c main_arg6)
          (x 0) (x 1) (x 2) :=
  (dat1 (F := Ideal) V c).arrAt_eq_of_cover 7 (scores V c) (fun t _ => flushed_eq V c t) covered

end Cert.KernelIdeal.Pairs

end
-- ==== Proof.KernelValue.lean ====
/-
  The result array as the scorer of the launch arrays.

  The second region leaves every pair's score computed from the arrays it finds; of those, the two projections are
  what the first region left, computed from the features and the two halves of the first matrix that the host
  operations cut; the remaining weights and biases are the launch arrays themselves (the last layer's vector the one
  column of its matrix). Substituting one into the other gives the scorer of the seven arguments.
-/
import proofs.«159591_j68564857913750_1_alg».proof.Proof.Gen.KernelIdeal.Frame
import proofs.«159591_j68564857913750_1_alg».proof.Proof.Spec
import proofs.«159591_j68564857913750_1_alg».proof.Proof.HostStretch
import proofs.«159591_j68564857913750_1_alg».proof.Proof.Region0
import proofs.«159591_j68564857913750_1_alg».proof.Proof.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Result

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.KernelIdeal.Entry

variable (m : (ℓ : Loc nD τ sig) → Buf (Elt Ideal) ℓ) (ρ : Dev nD → PrngReg)

/-- The first projection as the second region finds it. -/
theorem found_top (c : Dev nD) :
    (fun (b : Fin 2) (s k : Fin 512) => V2 m ρ c main_v3_0 (ix3 b s k))
      = Cert.Spec.proj (m ((c : Thread nD τ).loc main_arg0)) (Cert.Spec.topHalf (m ((c : Thread nD τ).loc main_arg1))) := by
  have h : V2 m ρ c main_v3_0 = (dat0 (V1 m ρ) c).arrAt 3 cfg0.N := W2_arr m ρ c 3
  funext b s k
  rw [h, Cert.KernelIdeal.Layer1.top_array (V1 m ρ) c, entry_arg0]
  show Cert.Spec.proj _ (fun h k => V1 m ρ c main_v0 (ix2 h k)) b s k = _
  rw [show (fun h k => V1 m ρ c main_v0 (ix2 h k)) = Cert.Spec.topHalf (m ((c : Thread nD τ).loc main_arg1)) from
    funext fun h => funext fun k => entry_top_apply m ρ c h k]

/-- The second projection as the second region finds it. -/
theorem found_bot (c : Dev nD) :
    (fun (b : Fin 2) (s k : Fin 512) => V2 m ρ c main_v3_1 (ix3 b s k))
      = Cert.Spec.proj (m ((c : Thread nD τ).loc main_arg0)) (Cert.Spec.botHalf (m ((c : Thread nD τ).loc main_arg1))) := by
  have h : V2 m ρ c main_v3_1 = (dat0 (V1 m ρ) c).arrAt 4 cfg0.N := W2_arr m ρ c 4
  funext b s k
  rw [h, Cert.KernelIdeal.Layer1.bot_array (V1 m ρ) c, entry_arg0]
  show Cert.Spec.proj _ (fun h k => V1 m ρ c main_v1 (ix2 h k)) b s k = _
  rw [show (fun h k => V1 m ρ c main_v1 (ix2 h k)) = Cert.Spec.botHalf (m ((c : Thread nD τ).loc main_arg1)) from
    funext fun h => funext fun k => entry_bot_apply m ρ c h k]

/-- The arrays the first region does not touch reach the second as launched. -/
theorem found_arg2 (c : Dev nD) : V2 m ρ c main_arg2 = m ((c : Thread nD τ).loc main_arg2) :=
  (W2_of_ne m ρ c main_arg2 (by decide)).trans (entry_arg2 m ρ c)
theorem found_arg3 (c : Dev nD) : V2 m ρ c main_arg3 = m ((c : Thread nD τ).loc main_arg3) :=
  (W2_of_ne m ρ c main_arg3 (by decide)).trans (entry_arg3 m ρ c)
theorem found_arg4 (c : Dev nD) : V2 m ρ c main_arg4 = m ((c : Thread nD τ).loc main_arg4) :=
  (W2_of_ne m ρ c main_arg4 (by decide)).trans (entry_arg4 m ρ c)
theorem found_arg6 (c : Dev nD) : V2 m ρ c main_arg6 = m ((c : Thread nD τ).loc main_arg6) :=
  (W2_of_ne m ρ c main_arg6 (by decide)).trans (entry_arg6 m ρ c)
theorem found_col (c : Dev nD) :
    (fun k : Fin 256 => V2 m ρ c main_v2 (ix1 k)) = fun k => m ((c : Thread nD τ).loc main_arg5) (ix2 k (0 : Fin 1)) := by
  funext k
  rw [show V2 m ρ c main_v2 = V1 m ρ c main_v2 from W2_of_ne m ρ c main_v2 (by decide)]
  exact entry_col_apply m ρ c k

/-- The result array at the end of the run is the scorer of the seven launch arrays. -/
theorem result_eq (c : Dev nD) :
    W3 m ρ c (Proc.devRef .tc main_v4)
      = Cert.Spec.score (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  have h : W3 m ρ c (Proc.devRef .tc main_v4) = (dat1 (V2 m ρ) c).arrAt 7 cfg1.N := W3_arr m ρ c 7
  rw [h, Cert.KernelIdeal.Pairs.score_array (V2 m ρ) c, found_top, found_bot, found_arg2, found_arg3, found_arg4,
    found_arg6, found_col]
  rfl

end Cert.KernelIdeal.Result

end
-- ==== Proof.RefRead.lean ====
/-
  The reference, read one operation at a time, is the scorer.

  Its two einsums against the halves of the first matrix are the two projections; the broadcasts place row `i` of the
  first and row `j` of the second at the pair `(i, j)`; the two `relu`s are the clamps at zero; the last einsum against
  the 256 × 1 matrix is the dot product with its one column; and `1 / (1 + exp (-x))` is the logistic function.
-/
import proofs.«159591_j68564857913750_1_alg».proof.Proof.Gen.ReferenceIdeal.Read
import proofs.«159591_j68564857913750_1_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ### The composed index functions at explicit coordinates -/

/-- The first projection's left factor: entry `(b, s, h)` of the features. -/
theorem lidx_v1_ix (b : Fin 2) (s k h : Fin 512) : lidx_main_v1 (ix3 b s k) h = ix3 b s h :=
  funext fun a => Fin.ext (by match a with | ⟨0, _⟩ => rfl | ⟨1, _⟩ => rfl | ⟨2, _⟩ => rfl)

/-- The first projection's right factor, through the slice: row `h` of the whole matrix. -/
theorem idx_v0_ridx_v1_ix (b : Fin 2) (s k h : Fin 512) :
    idx_main_v0 (ridx_main_v1 (ix3 b s k) h) = ix2 (⟨h.val, by omega⟩ : Fin 1024) k :=
  funext fun a => Fin.ext (by match a with | ⟨0, _⟩ => rfl | ⟨1, _⟩ => rfl)

/-- The second projection's left factor: entry `(b, s, h)` of the features. -/
theorem lidx_v3_ix (b : Fin 2) (s k h : Fin 512) : lidx_main_v3 (ix3 b s k) h = ix3 b s h :=
  funext fun a => Fin.ext (by match a with | ⟨0, _⟩ => rfl | ⟨1, _⟩ => rfl | ⟨2, _⟩ => rfl)

/-- The second projection's right factor, through the slice: row `512 + h` of the whole matrix. -/
theorem idx_v2_ridx_v3_ix (b : Fin 2) (s k h : Fin 512) :
    idx_main_v2 (ridx_main_v3 (ix3 b s k) h) = ix2 (⟨512 + h.val, by omega⟩ : Fin 1024) k :=
  funext fun a => Fin.ext (by match a with | ⟨0, _⟩ => rfl | ⟨1, _⟩ => rfl)

/-- The two broadcasts of the first projection keep the batch, the first residue and the feature. -/
theorem idx_v4_v6_ix (b : Fin 2) (i j h : Fin 512) : idx_main_v4 (idx_main_v6 (ix4 b i j h)) = ix3 b i h :=
  funext fun a => Fin.ext (by match a with | ⟨0, _⟩ => rfl | ⟨1, _⟩ => rfl | ⟨2, _⟩ => rfl)

/-- The two broadcasts of the second projection keep the batch, the second residue and the feature. -/
theorem idx_v5_v7_ix (b : Fin 2) (i j h : Fin 512) : idx_main_v5 (idx_main_v7 (ix4 b i j h)) = ix3 b j h :=
  funext fun a => Fin.ext (by match a with | ⟨0, _⟩ => rfl | ⟨1, _⟩ => rfl | ⟨2, _⟩ => rfl)

/-- The two broadcasts of the first bias keep the feature. -/
theorem idx_v9_v10_ix (b : Fin 2) (i j h : Fin 512) : idx_main_v9 (idx_main_v10 (ix4 b i j h)) = ix1 h :=
  funext fun a => Fin.ext (by match a with | ⟨0, _⟩ => rfl)

/-- The second layer's left factor: entry `(b, i, j, h)` of the first hidden layer. -/
theorem lidx_v13_ix (b : Fin 2) (i j : Fin 512) (k : Fin 256) (h : Fin 512) :
    lidx_main_v13 (ix4 b i j k) h = ix4 b i j h :=
  funext fun a => Fin.ext (by match a with | ⟨0, _⟩ => rfl | ⟨1, _⟩ => rfl | ⟨2, _⟩ => rfl | ⟨3, _⟩ => rfl)

/-- The second layer's right factor: entry `(h, k)` of its matrix. -/
theorem ridx_v13_ix (b : Fin 2) (i j : Fin 512) (k : Fin 256) (h : Fin 512) :
    ridx_main_v13 (ix4 b i j k) h = ix2 h k :=
  funext fun a => Fin.ext (by match a with | ⟨0, _⟩ => rfl | ⟨1, _⟩ => rfl)

/-- The two broadcasts of the second bias keep the feature. -/
theorem idx_v14_v15_ix (b : Fin 2) (i j : Fin 512) (k : Fin 256) :
    idx_main_v14 (idx_main_v15 (ix4 b i j k)) = ix1 k :=
  funext fun a => Fin.ext (by match a with | ⟨0, _⟩ => rfl)

/-- The last layer's left factor: entry `(b, i, j, k)` of the second hidden layer. -/
theorem lidx_v18_ix (b : Fin 2) (i j : Fin 512) (z : Fin 1) (k : Fin 256) :
    lidx_main_v18 (ix4 b i j z) k = ix4 b i j k :=
  funext fun a => Fin.ext (by match a with | ⟨0, _⟩ => rfl | ⟨1, _⟩ => rfl | ⟨2, _⟩ => rfl | ⟨3, _⟩ => rfl)

/-- The last layer's right factor: entry `k` of the one column. -/
theorem ridx_v18_ix (b : Fin 2) (i j : Fin 512) (k : Fin 256) :
    ridx_main_v18 (ix4 b i j (0 : Fin 1)) k = ix2 k (0 : Fin 1) :=
  funext fun a => Fin.ext (by match a with | ⟨0, _⟩ => rfl | ⟨1, _⟩ => rfl)

/-- The two broadcasts of the last bias read its one entry. -/
theorem idx_v19_v20_ix (b : Fin 2) (i j : Fin 512) (z : Fin 1) :
    idx_main_v19 (idx_main_v20 (ix4 b i j z)) = ix1 (0 : Fin 1) :=
  funext fun a => Fin.ext (by match a with | ⟨0, _⟩ => rfl)

/-- Dropping the last axis of length one: the pair `(b, i, j)` is read at `(b, i, j, 0)`. -/
theorem idx_v22_ix (b : Fin 2) (i j : Fin 512) : idx_main_v22 (ix3 b i j) = ix4 b i j (0 : Fin 1) :=
  funext fun a => Fin.ext (by
    have hb := b.isLt; have hi := i.isLt; have hj := j.isLt
    match a with
    | ⟨0, _⟩ => show ((b.val * 512 + i.val) * 512 + j.val) / 262144 = b.val; omega
    | ⟨1, _⟩ => show ((b.val * 512 + i.val) * 512 + j.val) / 512 % 512 = i.val; omega
    | ⟨2, _⟩ => show ((b.val * 512 + i.val) * 512 + j.val) / 1 % 512 = j.val; omega
    | ⟨3, _⟩ => rfl)

/-! ### The stages -/

/-- The float word of `1.0` is the extended real `1`. -/
theorem ofBits_one_f32 : Ideal.ofBits .f32 0x3F800000#32 = 1 := by
  simp [Ideal.ofBits, Ideal.ieee, -EReal.coe_mul]
  norm_num

/-- The first einsum is the projection through the top half of the first matrix. -/
theorem v1_eq (x0 : (⟨S2x512x512, .f32⟩ : BufTy).Contents (Elt Ideal)) (x1 : (⟨S1024x512, .f32⟩ : BufTy).Contents (Elt Ideal))
    (b : Fin 2) (s k : Fin 512) :
    val_main_v1 (F := Ideal) x0 x1 (ix3 b s k) = Cert.Spec.proj x0 (Cert.Spec.topHalf x1) b s k := by
  rw [val_main_v1_apply]
  unfold Cert.Spec.proj Cert.Spec.topHalf
  refine Finset.sum_congr rfl fun h _ => ?_
  rw [val_main_v0_apply, lidx_v1_ix, idx_v0_ridx_v1_ix]

/-- The second einsum is the projection through the bottom half of the first matrix. -/
theorem v3_eq (x0 : (⟨S2x512x512, .f32⟩ : BufTy).Contents (Elt Ideal)) (x1 : (⟨S1024x512, .f32⟩ : BufTy).Contents (Elt Ideal))
    (b : Fin 2) (s k : Fin 512) :
    val_main_v3 (F := Ideal) x0 x1 (ix3 b s k) = Cert.Spec.proj x0 (Cert.Spec.botHalf x1) b s k := by
  rw [val_main_v3_apply]
  unfold Cert.Spec.proj Cert.Spec.botHalf
  refine Finset.sum_congr rfl fun h _ => ?_
  rw [val_main_v2_apply, lidx_v3_ix, idx_v2_ridx_v3_ix]

/-- The first clamp's result at `(b, i, j, h)` is the first hidden layer of the pair `(i, j)`. -/
theorem v12_eq (x0 : (⟨S2x512x512, .f32⟩ : BufTy).Contents (Elt Ideal)) (x1 : (⟨S1024x512, .f32⟩ : BufTy).Contents (Elt Ideal))
    (x2 : (⟨S512, .f32⟩ : BufTy).Contents (Elt Ideal)) (b : Fin 2) (i j h : Fin 512) :
    val_main_v12 (F := Ideal) x0 x1 x2 (ix4 b i j h)
      = Cert.Spec.hidden1 (Cert.Spec.proj x0 (Cert.Spec.topHalf x1)) (Cert.Spec.proj x0 (Cert.Spec.botHalf x1)) x2 b i j h := by
  rw [val_main_v12_apply, val_main_v11_apply, val_main_v8_apply, val_main_v6_apply, val_main_v4_apply,
    val_main_v7_apply, val_main_v5_apply, val_main_v10_apply, val_main_v9_apply, val_main_call0_v0_apply,
    val_main_call0_cst_apply, idx_v4_v6_ix, idx_v5_v7_ix, idx_v9_v10_ix, v1_eq, v3_eq]
  rfl

/-- The second clamp's result at `(b, i, j, k)` is the second hidden layer of the pair `(i, j)`. -/
theorem v17_eq (x0 : (⟨S2x512x512, .f32⟩ : BufTy).Contents (Elt Ideal)) (x1 : (⟨S1024x512, .f32⟩ : BufTy).Contents (Elt Ideal))
    (x2 : (⟨S512, .f32⟩ : BufTy).Contents (Elt Ideal)) (x3 : (⟨S512x256, .f32⟩ : BufTy).Contents (Elt Ideal))
    (x4 : (⟨S256, .f32⟩ : BufTy).Contents (Elt Ideal)) (b : Fin 2) (i j : Fin 512) (k : Fin 256) :
    val_main_v17 (F := Ideal) x0 x1 x2 x3 x4 (ix4 b i j k)
      = Cert.Spec.hidden2 (Cert.Spec.proj x0 (Cert.Spec.topHalf x1)) (Cert.Spec.proj x0 (Cert.Spec.botHalf x1)) x2 x3 x4 b i j k := by
  have hs : ∑ h : Fin 512, (val_main_v12 (F := Ideal) x0 x1 x2) (lidx_main_v13 (ix4 b i j k) h) * x3 (ridx_main_v13 (ix4 b i j k) h)
      = ∑ h : Fin 512, Cert.Spec.hidden1 (Cert.Spec.proj x0 (Cert.Spec.topHalf x1)) (Cert.Spec.proj x0 (Cert.Spec.botHalf x1)) x2 b i j h
          * x3 (ix2 h k) :=
    Finset.sum_congr rfl fun h _ => by rw [lidx_v13_ix, ridx_v13_ix, v12_eq]
  rw [val_main_v17_apply, val_main_v16_apply, val_main_v13_apply, val_main_v15_apply, val_main_v14_apply,
    val_main_call1_v0_apply, val_main_call1_cst_apply, idx_v14_v15_ix, hs]
  rfl

/-- The last einsum plus its bias at `(b, i, j, 0)` is the logit of the pair `(i, j)`. -/
theorem v21_eq (x0 : (⟨S2x512x512, .f32⟩ : BufTy).Contents (Elt Ideal)) (x1 : (⟨S1024x512, .f32⟩ : BufTy).Contents (Elt Ideal))
    (x2 : (⟨S512, .f32⟩ : BufTy).Contents (Elt Ideal)) (x3 : (⟨S512x256, .f32⟩ : BufTy).Contents (Elt Ideal))
    (x4 : (⟨S256, .f32⟩ : BufTy).Contents (Elt Ideal)) (x5 : (⟨S256x1, .f32⟩ : BufTy).Contents (Elt Ideal))
    (x6 : (⟨S1, .f32⟩ : BufTy).Contents (Elt Ideal)) (b : Fin 2) (i j : Fin 512) :
    val_main_v21 (F := Ideal) x0 x1 x2 x3 x4 x5 x6 (ix4 b i j (0 : Fin 1))
      = Cert.Spec.logit (Cert.Spec.proj x0 (Cert.Spec.topHalf x1)) (Cert.Spec.proj x0 (Cert.Spec.botHalf x1)) x2 x3 x4
          (fun k => x5 (ix2 k (0 : Fin 1))) x6 b i j := by
  have hs : ∑ k : Fin 256, (val_main_v17 (F := Ideal) x0 x1 x2 x3 x4) (lidx_main_v18 (ix4 b i j (0 : Fin 1)) k)
          * x5 (ridx_main_v18 (ix4 b i j (0 : Fin 1)) k)
      = ∑ k : Fin 256, Cert.Spec.hidden2 (Cert.Spec.proj x0 (Cert.Spec.topHalf x1)) (Cert.Spec.proj x0 (Cert.Spec.botHalf x1)) x2 x3 x4 b i j k
          * x5 (ix2 k (0 : Fin 1)) :=
    Finset.sum_congr rfl fun k _ => by rw [lidx_v18_ix, ridx_v18_ix, v17_eq]
  rw [val_main_v21_apply, val_main_v18_apply, val_main_v20_apply, val_main_v19_apply, idx_v19_v20_ix, hs]
  rfl

/-- The reference's last stage is the scorer of its seven arguments. -/
theorem reference_eq_score (x0 : (⟨S2x512x512, .f32⟩ : BufTy).Contents (Elt Ideal)) (x1 : (⟨S1024x512, .f32⟩ : BufTy).Contents (Elt Ideal))
    (x2 : (⟨S512, .f32⟩ : BufTy).Contents (Elt Ideal)) (x3 : (⟨S512x256, .f32⟩ : BufTy).Contents (Elt Ideal))
    (x4 : (⟨S256, .f32⟩ : BufTy).Contents (Elt Ideal)) (x5 : (⟨S256x1, .f32⟩ : BufTy).Contents (Elt Ideal))
    (x6 : (⟨S1, .f32⟩ : BufTy).Contents (Elt Ideal)) :
    val_main_v28 (F := Ideal) x0 x1 x2 x3 x4 x5 x6 = Cert.Spec.score x0 x1 x2 x3 x4 x5 x6 := by
  funext x
  obtain ⟨b, i, j, rfl⟩ : ∃ (b : Fin 2) (i j : Fin 512), x = ix3 b i j := ⟨x 0, x 1, x 2, eq_ix3 x⟩
  rw [Cert.Spec.score_apply, val_main_v28_apply, val_main_v27_apply, val_main_cst_0_apply, val_main_v26_apply,
    val_main_v25_apply, val_main_cst_apply, val_main_v24_apply, val_main_v23_apply, val_main_v22_apply,
    idx_v22_ix, v21_eq]
  unfold Cert.Spec.pairScore
  rw [Ideal.ofBits_def, ofBits_one_f32]
  rfl

end Cert.ReferenceIdeal.RefValue

end
-- ==== Proof.lean ====
/-
  A pairwise scorer against its plain reference, equal over the extended reals.

  For every batch entry and every pair of residues `(i, j)` both programs compute the logistic function of
  `relu(relu(f_i · W1[:512] + f_j · W1[512:] + b1) · W2 + b2) · W3[:, 0] + b3`.
  The kernel does it in two launches: the first multiplies each batch's features by the two halves of the first
  matrix, the second scores the pairs block by block (32 rows against 128 rows), its last layer a lane sum against
  the 256 weights. The reference writes the same layers as three contractions over whole arrays and spells the
  logistic function as `1 / (1 + exp (-x))`. Over the extended reals a change of float format is the identity, a
  product into a zero accumulator, a contraction and a lane sum are the same finite sums, and the logistic function is
  that quotient by definition; so both results are ONE function of the seven arguments (`Cert.Spec.score`), entry by
  entry, with no law beyond the sums themselves: the precondition is never opened.
  The three frames: the two kernel programs by their launch certificates, the reference by its run with the result
  dropped. The idealization rewrote nothing, so its conjunct is trivial.
-/
import proofs.«159591_j68564857913750_1_alg».proof.Defs
import proofs.«159591_j68564857913750_1_alg».proof.Proof.Gen.Kernel
import proofs.«159591_j68564857913750_1_alg».proof.Proof.Gen.Kernel.Skeleton
import proofs.«159591_j68564857913750_1_alg».proof.Proof.Gen.Kernel.Launch
import proofs.«159591_j68564857913750_1_alg».proof.Proof.Gen.Kernel.Points
import proofs.«159591_j68564857913750_1_alg».proof.Proof.Gen.Kernel.Frame
import proofs.«159591_j68564857913750_1_alg».proof.Proof.Gen.KernelIdeal
import proofs.«159591_j68564857913750_1_alg».proof.Proof.Gen.KernelIdeal.Skeleton
import proofs.«159591_j68564857913750_1_alg».proof.Proof.Gen.KernelIdeal.Launch
import proofs.«159591_j68564857913750_1_alg».proof.Proof.Gen.KernelIdeal.Points
import proofs.«159591_j68564857913750_1_alg».proof.Proof.Gen.KernelIdeal.Frame
import proofs.«159591_j68564857913750_1_alg».proof.Proof.Gen.ReferenceIdeal
import proofs.«159591_j68564857913750_1_alg».proof.Proof.Gen.Pre_finite_inputs
import proofs.«159591_j68564857913750_1_alg».proof.Proof.Gen.ReferenceIdeal.Run
import proofs.«159591_j68564857913750_1_alg».proof.Proof.Gen.ReferenceIdeal.Read
import proofs.«159591_j68564857913750_1_alg».proof.Proof.KernelRun
import proofs.«159591_j68564857913750_1_alg».proof.Proof.KernelValue
import proofs.«159591_j68564857913750_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the scorer of its launch arrays (the two regions read through), the
    reference's at its last stage, which is the same scorer of arrays that agree. -/
theorem algebraic : Cert.algebraic_KernelIdeal_ReferenceIdeal := by
  intro m ρ m' ρ' _ hagree
  refine ⟨fun c => Cert.Spec.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Result.result_eq m ρ c), (h c).2⟩)
      (Cert.KernelIdeal.Valued.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v28_eq, Cert.ReferenceIdeal.RefValue.reference_eq_score,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
